-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x128 : Shape := ⟨3, ![8, 256, 128]⟩
abbrev S8x65536x128 : Shape := ⟨3, ![8, 65536, 128]⟩
abbrev S128x128 : Shape := ⟨2, ![128, 128]⟩
abbrev S128 : Shape := ⟨1, ![128]⟩
abbrev S128x256 : Shape := ⟨2, ![128, 256]⟩
abbrev S_ : Shape := ⟨0, ![]⟩

class Facts : Prop where
  bcast_S_S8x256x128 : S_.BroadcastsInDim S8x256x128 (![] : Fin 0 → Fin S8x256x128.rank)
  reducesTo_S8x256x128_S_d0_1_2 : S8x256x128.ReducesTo [0, 1, 2] S_
  h_S_ : 0 < S_.numel
  bcast_S_S8x65536x128 : S_.BroadcastsInDim S8x65536x128 (![] : Fin 0 → Fin S8x65536x128.rank)
  reducesTo_S8x65536x128_S_d0_1_2 : S8x65536x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part3 {F : FTy → Type} [FloatOps F] (main_arg11 : FVec F S128x128 .f32) (main_arg12 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg7 : FVec F S128x128 .f32) (main_arg8 : FVec F S128 .f32) (main_arg9 : FVec F S128x256 .f32) (main_arg10 : FVec F S128 .f32) (main_arg11 : FVec F S128x128 .f32) (main_arg12 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x256 .f32 := Host.absf main_arg9
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_v48 main_v49 main_v50

def fn_part1 {F : FTy → Type} [FloatOps F] (main_arg4 : FVec F S128 .f32) (main_arg5 : FVec F S128x256 .f32) (main_arg6 : FVec F S128 .f32) (main_arg7 : FVec F S128x128 .f32) (main_arg8 : FVec F S128 .f32) (main_arg9 : FVec F S128x256 .f32) (main_arg10 : FVec F S128 .f32) (main_arg11 : FVec F S128x128 .f32) (main_arg12 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8x256x128 .f32) (main_arg1 : FVec F S8x65536x128 .f32) (main_arg2 : FVec F S8x256x128 .f32) (main_arg3 : FVec F S128x128 .f32) (main_arg4 : FVec F S128 .f32) (main_arg5 : FVec F S128x256 .f32) (main_arg6 : FVec F S128 .f32) (main_arg7 : FVec F S128x128 .f32) (main_arg8 : FVec F S128 .f32) (main_arg9 : FVec F S128x256 .f32) (main_arg10 : FVec F S128 .f32) (main_arg11 : FVec F S128x128 .f32) (main_arg12 : FVec F S128 .f32) : IVec S_ 1 :=
  let main_v0 : FVec F S8x256x128 .f32 := Host.absf main_arg0
  let main_cst : FVec F S_ .f32 := constant S_ .f32 0x7F800000#32
  let main_v1 : FVec F S8x256x128 .f32 := broadcastInDim S8x256x128 ![] bcast_S_S8x256x128 main_cst
  let main_v2 : IVec S8x256x128 1 := cmpf .olt main_v0 main_v1
  let main_c : IVec S_ 1 := constantI S_ 1 1#1
  let main_v3 : IVec S_ 1 := (fun x v => Host.reduce IntOp.andi x v reducesTo_S8x256x128_S_d0_1_2 h_S_) main_v2 main_c
  let main_v4 : FVec F S8x65536x128 .f32 := Host.absf main_arg1
  let main_cst_0 : FVec F S_ .f32 := constant S_ .f32 0x7F800000#32
  let main_v5 : FVec F S8x65536x128 .f32 := broadcastInDim S8x65536x128 ![] bcast_S_S8x65536x128 main_cst_0
  let main_v6 : IVec S8x65536x128 1 := cmpf .olt main_v4 main_v5
  let main_c_1 : IVec S_ 1 := constantI S_ 1 1#1
  let main_v7 : IVec S_ 1 := (fun x v => Host.reduce IntOp.andi x v reducesTo_S8x65536x128_S_d0_1_2 h_S_) main_v6 main_c_1
  let main_v8 : IVec S_ 1 := andi main_v3 main_v7
  let main_v9 : FVec F S8x256x128 .f32 := Host.absf main_arg2
  let main_cst_2 : FVec F S_ .f32 := constant S_ .f32 0x7F800000#32
  let main_v10 : FVec F S8x256x128 .f32 := broadcastInDim S8x256x128 ![] bcast_S_S8x256x128 main_cst_2
  let main_v11 : IVec S8x256x128 1 := cmpf .olt main_v9 main_v10
  let main_c_3 : IVec S_ 1 := constantI S_ 1 1#1
  let main_v12 : IVec S_ 1 := (fun x v => Host.reduce IntOp.andi x v reducesTo_S8x256x128_S_d0_1_2 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_v13 main_v16
-- ==== Kernel.lean ====
abbrev S8x256x128 : Shape := ⟨3, ![8, 256, 128]⟩
abbrev S8x65536x128 : Shape := ⟨3, ![8, 65536, 128]⟩
abbrev S128x128 : Shape := ⟨2, ![128, 128]⟩
abbrev S128 : Shape := ⟨1, ![128]⟩
abbrev S128x256 : Shape := ⟨2, ![128, 256]⟩
abbrev S1x256x128 : Shape := ⟨3, ![1, 256, 128]⟩
abbrev S256x128 : Shape := ⟨2, ![256, 128]⟩
abbrev S1x128 : Shape := ⟨2, ![1, 128]⟩
abbrev S1x4096x128 : Shape := ⟨3, ![1, 4096, 128]⟩
abbrev S1x16x128 : Shape := ⟨3, ![1, 16, 128]⟩
abbrev S4096x128 : Shape := ⟨2, ![4096, 128]⟩
abbrev S16x128 : Shape := ⟨2, ![16, 128]⟩
abbrev S16x1x128 : Shape := ⟨3, ![16, 1, 128]⟩
abbrev S16x256x128 : Shape := ⟨3, ![16, 256, 128]⟩
abbrev S1x1x128 : Shape := ⟨3, ![1, 1, 128]⟩

abbrev nBuf : Space → Nat
  | .hbm => 21
  | .vmem => 30
  | .smem => 0
  | _ => 0

abbrev bufTy : (tb : Table) → Fin (tcTables nBuf tb) → BufTy
  | .hbm, ⟨0, _⟩ => ⟨S8x256x128, .f32⟩
  | .hbm, ⟨1, _⟩ => ⟨S8x65536x128, .f32⟩
  | .hbm, ⟨2, _⟩ => ⟨S8x256x128, .f32⟩
  | .hbm, ⟨3, _⟩ => ⟨S128x128, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x256, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128x128, .f32⟩
  | .hbm, ⟨15, _⟩ => ⟨S128x128, .f32⟩
  | .hbm, ⟨16, _⟩ => ⟨S128x128, .f32⟩
  | .hbm, ⟨17, _⟩ => ⟨S8x256x128, .f32⟩
  | .hbm, ⟨18, _⟩ => ⟨S8x256x128, .f32⟩
  | .hbm, ⟨19, _⟩ => ⟨S8x256x128, .f32⟩
  | .hbm, ⟨20, _⟩ => ⟨S8x65536x128, .f32⟩
  | .local _ .vmem, ⟨0, _⟩ => ⟨S1x256x128, .f32⟩
  | .local _ .vmem, ⟨1, _⟩ => ⟨S1x256x128, .f32⟩
  | .local _ .vmem, ⟨2, _⟩ => ⟨S1x256x128, .f32⟩
  | .local _ .vmem, ⟨3, _⟩ => ⟨S1x256x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128x128, .f32⟩
  | .local _ .vmem, ⟨8, _⟩ => ⟨S128, .f32⟩
  | .local _ .vmem, ⟨9, _⟩ => ⟨S128x128, .f32⟩
  | .local _ .vmem, ⟨10, _⟩ => ⟨S128x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x256x128, .f32⟩
  | .local _ .vmem, ⟨17, _⟩ => ⟨S1x4096x128, .f32⟩
  | .local _ .vmem, ⟨18, _⟩ => ⟨S1x4096x128, .f32⟩
  | .local _ .vmem, ⟨19, _⟩ => ⟨S1x16x128, .f32⟩
  | .local _ .vmem, ⟨20, _⟩ => ⟨S1x16x128, .f32⟩
  | .local _ .vmem, ⟨21, _⟩ => ⟨S1x256x128, .f32⟩
  | .local _ .vmem, ⟨22, _⟩ => ⟨S1x256x128, .f32⟩
  | .local _ .vmem, ⟨23, _⟩ => ⟨S128x128, .f32⟩
  | .local _ .vmem, ⟨24, _⟩ => ⟨S128, .f32⟩
  | .local _ .vmem, ⟨25, _⟩ => ⟨S128x128, .f32⟩
  | .local _ .vmem, ⟨26, _⟩ => ⟨S128, .f32⟩
  | .local _ .vmem, ⟨27, _⟩ => ⟨S128, .f32⟩
  | .local _ .vmem, ⟨28, _⟩ => ⟨S1x4096x128, .f32⟩
  | .local _ .vmem, ⟨29, _⟩ => ⟨S1x4096x128, .f32⟩
  | _, _ => ⟨S8x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev main_v5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg8_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem8_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨2, ![8, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x16x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x4096x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

class Facts₀ : Prop where
  slices_S128x256_S128x128_0_0 : S128x256.Slices ![0, 0] S128x128
  slices_S128x256_S128x128_0_128 : S128x256.Slices ![0, 128] S128x128
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  transposes_S128x128_p1_0_S128x128 : S128x128.Transposes [1, 0] S128x128
  shapeCasts_S128_S1x128 : S128.ShapeCasts S1x128
  broadcasts_S1x128_S256x128 : S1x128.Broadcasts S256x128
  shapeCasts_S128x128_S128x128 : S128x128.ShapeCasts S128x128
  shapeCasts_S256x128_S1x256x128 : S256x128.ShapeCasts S1x256x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S1x16x128_S1x16x128_0_0_0 : ∀ a, (![0, 0, 0] : Fin 3 → Nat) a + S1x16x128.size a ≤ S1x16x128.size a
  h_S1x16x128 : 0 < S1x16x128.numel
  shapeCasts_S1x16x128_S16x128 : S1x16x128.ShapeCasts S16x128
  shapeCasts_S16x128_S16x1x128 : S16x128.ShapeCasts S16x1x128
  broadcasts_S16x1x128_S16x256x128 : S16x1x128.Broadcasts S16x256x128
  broadcasts_S1x256x128_S16x256x128 : S1x256x128.Broadcasts S16x256x128
  shapeCasts_S128_S1x1x128 : S128.ShapeCasts S1x1x128
  broadcasts_S1x1x128_S16x256x128 : S1x1x128.Broadcasts S16x256x128
  shapeCasts_S16x256x128_S4096x128 : S16x256x128.ShapeCasts S4096x128
  broadcasts_S1x128_S4096x128 : S1x128.Broadcasts S4096x128
  shapeCasts_S4096x128_S1x4096x128 : S4096x128.ShapeCasts S1x4096x128
  dot_S256x128_S128x128_S256x128_1_0_0_1_n_n_wf : DotDims.WF S256x128 S128x128 S256x128 [1] [0] [0] [1] [] []
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128.size a ≤ S8x256x128.size a
  hwx0_0 : ∀ i : grid0.Coords, EltTy.bits .f32 = 32 ∨ (Rect.block (s := S8x256x128) S1x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x128.size a ≤ S8x256x128.size a
  hwx0_1 : ∀ i : grid0.Coords, EltTy.bits .f32 = 32 ∨ (Rect.block (s := S8x256x128) S1x256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x128.size a ≤ S8x256x128.size a
  hwx0_9 : ∀ i : grid0.Coords, EltTy.bits .f32 = 32 ∨ (Rect.block (s := S8x256x128) S1x256x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256x128.size a ≤ S8x256x128.size a
  hwx0_10 : ∀ i : grid0.Coords, EltTy.bits .f32 = 32 ∨ (Rect.block (s := S8x256x128) S1x256x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256x128.size a ≤ S8x256x128.size a
  hwx0_11 : ∀ i : grid0.Coords, EltTy.bits .f32 = 32 ∨ (Rect.block (s := S8x256x128) S1x256x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x128.size a ≤ S8x65536x128.size a
  hwx1_0 : ∀ i : grid1.Coords, EltTy.bits .f32 = 32 ∨ (Rect.block (s := S8x65536x128) S1x4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16x128.size a ≤ S8x256x128.size a
  hwx1_1 : ∀ i : grid1.Coords, EltTy.bits .f32 = 32 ∨ (Rect.block (s := S8x256x128) S1x16x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x128.size a ≤ S8x256x128.size a
  hwx1_2 : ∀ i : grid1.Coords, EltTy.bits .f32 = 32 ∨ (Rect.block (s := S8x256x128) S1x256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x4096x128.size a ≤ S8x65536x128.size a
  hwx1_8 : ∀ i : grid1.Coords, EltTy.bits .f32 = 32 ∨ (Rect.block (s := S8x65536x128) S1x4096x128.size (cc1_transform_8 i) (hinb1_8 i)).WholeWords (EltTy.packing .f32)

variable [Facts₀]

def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S1x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4_0) S1x256x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_1) S1x256x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_2) S1x256x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg1) S1x4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S1x16x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_2) S1x256x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v5) S1x4096x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S8x256x128 : Shape := ⟨3, ![8, 256, 128]⟩
abbrev S8x65536x128 : Shape := ⟨3, ![8, 65536, 128]⟩
abbrev S128x128 : Shape := ⟨2, ![128, 128]⟩
abbrev S128 : Shape := ⟨1, ![128]⟩
abbrev S128x256 : Shape := ⟨2, ![128, 256]⟩
abbrev S1x1x128 : Shape := ⟨3, ![1, 1, 128]⟩
abbrev S_ : Shape := ⟨0, ![]⟩
abbrev S8x256x256 : Shape := ⟨3, ![8, 256, 256]⟩
abbrev S8x256x1x128 : Shape := ⟨4, ![8, 256, 1, 128]⟩
abbrev S8x1x256x128 : Shape := ⟨4, ![8, 1, 256, 128]⟩
abbrev S8x256x256x128 : Shape := ⟨4, ![8, 256, 256, 128]⟩
abbrev S1x1x1x128 : Shape := ⟨4, ![1, 1, 1, 128]⟩

abbrev nBuf : Space → Nat
  | .hbm => 59
  | .vmem => 0
  | .smem => 0
  | _ => 0

abbrev bufTy : (tb : Table) → Fin (tcTables nBuf tb) → BufTy
  | .hbm, ⟨0, _⟩ => ⟨S8x256x128, .f32⟩
  | .hbm, ⟨1, _⟩ => ⟨S8x65536x128, .f32⟩
  | .hbm, ⟨2, _⟩ => ⟨S8x256x128, .f32⟩
  | .hbm, ⟨3, _⟩ => ⟨S128x128, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x256, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S8x256x128, .f32⟩
  | .hbm, ⟨14, _⟩ => ⟨S1x1x128, .f32⟩
  | .hbm, ⟨15, _⟩ => ⟨S8x256x128, .f32⟩
  | .hbm, ⟨16, _⟩ => ⟨S8x256x128, .f32⟩
  | .hbm, ⟨17, _⟩ => ⟨S_, .f32⟩
  | .hbm, ⟨18, _⟩ => ⟨S8x256x128, .f32⟩
  | .hbm, ⟨19, _⟩ => ⟨S8x256x128, .f32⟩
  | .hbm, ⟨20, _⟩ => ⟨S8x256x256, .f32⟩
  | .hbm, ⟨21, _⟩ => ⟨S8x256x128, .f32⟩
  | .hbm, ⟨22, _⟩ => ⟨S1x1x128, .f32⟩
  | .hbm, ⟨23, _⟩ => ⟨S8x256x128, .f32⟩
  | .hbm, ⟨24, _⟩ => ⟨S8x256x128, .f32⟩
  | .hbm, ⟨25, _⟩ => ⟨S_, .f32⟩
  | .hbm, ⟨26, _⟩ => ⟨S8x256x128, .f32⟩
  | .hbm, ⟨27, _⟩ => ⟨S8x256x128, .f32⟩
  | .hbm, ⟨28, _⟩ => ⟨S128x128, .f32⟩
  | .hbm, ⟨29, _⟩ => ⟨S128x128, .f32⟩
  | .hbm, ⟨30, _⟩ => ⟨S8x256x128, .f32⟩
  | .hbm, ⟨31, _⟩ => ⟨S8x256x128, .f32⟩
  | .hbm, ⟨32, _⟩ => ⟨S8x256x1x128, .f32⟩
  | .hbm, ⟨33, _⟩ => ⟨S8x1x256x128, .f32⟩
  | .hbm, ⟨34, _⟩ => ⟨S8x256x256x128, .f32⟩
  | .hbm, ⟨35, _⟩ => ⟨S8x256x256x128, .f32⟩
  | .hbm, ⟨36, _⟩ => ⟨S8x256x256x128, .f32⟩
  | .hbm, ⟨37, _⟩ => ⟨S1x1x1x128, .f32⟩
  | .hbm, ⟨38, _⟩ => ⟨S8x256x256x128, .f32⟩
  | .hbm, ⟨39, _⟩ => ⟨S8x256x256x128, .f32⟩
  | .hbm, ⟨40, _⟩ => ⟨S8x65536x128, .f32⟩
  | .hbm, ⟨41, _⟩ => ⟨S_, .f32⟩
  | .hbm, ⟨42, _⟩ => ⟨S8x65536x128, .f32⟩
  | .hbm, ⟨43, _⟩ => ⟨S8x65536x128, .f32⟩
  | .hbm, ⟨44, _⟩ => ⟨S8x65536x128, .f32⟩
  | .hbm, ⟨45, _⟩ => ⟨S1x1x128, .f32⟩
  | .hbm, ⟨46, _⟩ => ⟨S8x65536x128, .f32⟩
  | .hbm, ⟨47, _⟩ => ⟨S8x65536x128, .f32⟩
  | .hbm, ⟨48, _⟩ => ⟨S_, .f32⟩
  | .hbm, ⟨49, _⟩ => ⟨S8x65536x128, .f32⟩
  | .hbm, ⟨50, _⟩ => ⟨S8x65536x128, .f32⟩
  | .hbm, ⟨51, _⟩ => ⟨S8x65536x128, .f32⟩
  | .hbm, ⟨52, _⟩ => ⟨S8x65536x128, .f32⟩
  | .hbm, ⟨53, _⟩ => ⟨S1x1x128, .f32⟩
  | .hbm, ⟨54, _⟩ => ⟨S8x65536x128, .f32⟩
  | .hbm, ⟨55, _⟩ => ⟨S8x65536x128, .f32⟩
  | .hbm, ⟨56, _⟩ => ⟨S_, .f32⟩
  | .hbm, ⟨57, _⟩ => ⟨S8x65536x128, .f32⟩
  | .hbm, ⟨58, _⟩ => ⟨S8x65536x128, .f32⟩
  | _, _ => ⟨S8x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_cst : Ref sig .tc := ⟨.hbm, 17, rfl⟩
abbrev main_call0_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call1_cst : Ref sig .tc := ⟨.hbm, 25, rfl⟩
abbrev main_call1_v0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call2_cst : Ref sig .tc := ⟨.hbm, 41, rfl⟩
abbrev main_call2_v0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call3_cst : Ref sig .tc := ⟨.hbm, 48, rfl⟩
abbrev main_call3_v0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_call4_cst : Ref sig .tc := ⟨.hbm, 56, rfl⟩
abbrev main_call4_v0 : Ref sig .tc := ⟨.hbm, 57, rfl⟩
abbrev main_v35 : Ref sig .tc := ⟨.hbm, 58, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S8x256x128_0_1_2 : S1x1x128.BroadcastsInDim S8x256x128 (![0, 1, 2] : Fin 3 → Fin S8x256x128.rank)
  bcast_S_S8x256x128 : S_.BroadcastsInDim S8x256x128 (![] : Fin 0 → Fin S8x256x128.rank)
  concatenates_S8x256x128_S8x256x128_S8x256x256_d2 : Shape.Concatenates [S8x256x128, S8x256x128] S8x256x256 2
  slices_S128x256_S128x128_0_0 : S128x256.Slices ![0, 0] S128x128
  slices_S128x256_S128x128_0_128 : S128x256.Slices ![0, 128] S128x128
  bcast_S8x256x128_S8x256x1x128_0_1_3 : S8x256x128.BroadcastsInDim S8x256x1x128 (![0, 1, 3] : Fin 3 → Fin S8x256x1x128.rank)
  bcast_S8x256x128_S8x1x256x128_0_2_3 : S8x256x128.BroadcastsInDim S8x1x256x128 (![0, 2, 3] : Fin 3 → Fin S8x1x256x128.rank)
  bcast_S8x256x1x128_S8x256x256x128_0_1_2_3 : S8x256x1x128.BroadcastsInDim S8x256x256x128 (![0, 1, 2, 3] : Fin 4 → Fin S8x256x256x128.rank)
  bcast_S8x1x256x128_S8x256x256x128_0_1_2_3 : S8x1x256x128.BroadcastsInDim S8x256x256x128 (![0, 1, 2, 3] : Fin 4 → Fin S8x256x256x128.rank)
  bcast_S128_S1x1x1x128_3 : S128.BroadcastsInDim S1x1x1x128 (![3] : Fin 1 → Fin S1x1x1x128.rank)
  bcast_S1x1x1x128_S8x256x256x128_0_1_2_3 : S1x1x1x128.BroadcastsInDim S8x256x256x128 (![0, 1, 2, 3] : Fin 4 → Fin S8x256x256x128.rank)
  shapeCasts_S8x256x256x128_S8x65536x128 : S8x256x256x128.ShapeCasts S8x65536x128
  bcast_S_S8x65536x128 : S_.BroadcastsInDim S8x65536x128 (![] : Fin 0 → Fin S8x65536x128.rank)
  bcast_S1x1x128_S8x65536x128_0_1_2 : S1x1x128.BroadcastsInDim S8x65536x128 (![0, 1, 2] : Fin 3 → Fin S8x65536x128.rank)
  dot_S8x256x128_S128x128_S8x256x128_2_1_01_0_n_n_wf : DotDims.WF S8x256x128 S128x128 S8x256x128 [2] [1] [0, 1] [0] [] []
  dot_S8x256x256_S128x256_S8x256x128_2_1_01_0_n_n_wf : DotDims.WF S8x256x256 S128x256 S8x256x128 [2] [1] [0, 1] [0] [] []
  dot_S8x65536x128_S128x128_S8x65536x128_2_1_01_0_n_n_wf : DotDims.WF S8x65536x128 S128x128 S8x65536x128 [2] [1] [0, 1] [0] [] []

variable [Facts₀]

def dot_S8x256x128_S128x128_S8x256x128_2_1_01_0_n_n : DotDims S8x256x128 S128x128 S8x256x128 where
  lhsContracting := [2]
  rhsContracting := [1]
  lhsNonContracting := [0, 1]
  rhsNonContracting := [0]
  lhsBatch := []
  rhsBatch := []
  wf := dot_S8x256x128_S128x128_S8x256x128_2_1_01_0_n_n_wf
def dot_S8x256x256_S128x256_S8x256x128_2_1_01_0_n_n : DotDims S8x256x256 S128x256 S8x256x128 where
  lhsContracting := [2]
  rhsContracting := [1]
  lhsNonContracting := [0, 1]
  rhsNonContracting := [0]
  lhsBatch := []
  rhsBatch := []
  wf := dot_S8x256x256_S128x256_S8x256x128_2_1_01_0_n_n_wf
def dot_S8x65536x128_S128x128_S8x65536x128_2_1_01_0_n_n : DotDims S8x65536x128 S128x128 S8x65536x128 where
  lhsContracting := [2]
  rhsContracting := [1]
  lhsNonContracting := [0, 1]
  rhsNonContracting := [0]
  lhsBatch := []
  rhsBatch := []
  wf := dot_S8x65536x128_S128x128_S8x65536x128_2_1_01_0_n_n_wf

class Facts : Prop extends Facts₀ where

variable [Facts]
-- ==== Proof.Spec.lean ====
/-
  The two results of one message-passing layer, entry by entry, on the extended reals.

  Nodes.  With x = old_nodes and m = messages_nodes, the hidden features are
      h[b,n,k] = max(Σ_q x[b,n,q]·W0[k,q] + b0[k], 0)
  and the node result is max(Σ over the 256 entries of the row (h[b,n,·] ‖ m[b,n,·]) against row o of W1, + b1[o], 0).
  Read with the row joined, that is one sum over 256 terms (`nodeJoined`); read with W1 cut into its left and right
  128 columns it is a sum over h plus a sum over m (`nodeSplit`).  A sum over 256 = 128 + 128 terms is the sum of its two
  halves in any commutative monoid, so the two readings agree on every input, infinite entries included (`nodeJoined_eq`).

  Edges.  With pI = x·W3[:, :128]ᵀ and pJ = x·W3[:, 128:]ᵀ, edge e = 256·r + j of batch b gets the pair term
      p[b,e,k] = max((pI[b,r,k] + pJ[b,j,k]) + b3[k], 0),
  its own hidden features g[b,e,k] = max(Σ_q edges[b,e,q]·W2[k,q] + b2[k], 0), and the edge result is
      max(Σ_k (g[b,e,k] + p[b,e,k])·W4[o,k] + b4[o], 0).
-/
import Idealize.ShloMosaic.PureOps.Ideal
import Idealize.ShloMosaic.Lib.ValueIdx
import Mathlib.Algebra.BigOperators.Fin

noncomputable section

open scoped BigOperators

namespace Cert.Spec

open Idealize.ShloMosaic Idealize.ShloMosaic.ValueIdx

/-- Arrays of rank one, two and three over the extended reals, by their literal extents. -/
abbrev A1 (a : Nat) : Type := (⟨1, ![a]⟩ : Shape).Idx → EReal
abbrev A2 (a b : Nat) : Type := (⟨2, ![a, b]⟩ : Shape).Idx → EReal
abbrev A3 (a b c : Nat) : Type := (⟨3, ![a, b, c]⟩ : Shape).Idx → EReal

/-- The left 128 columns of a 128 × 256 matrix. -/
def leftCols (W : A2 128 256) : A2 128 128 :=
  fun i => W (ix2 (i 0) ⟨(i 1).val, by have := idx2_lt1 i; omega⟩)

/-- The right 128 columns of a 128 × 256 matrix. -/
def rightCols (W : A2 128 256) : A2 128 128 :=
  fun i => W (ix2 (i 0) ⟨128 + (i 1).val, by have := idx2_lt1 i; omega⟩)

/-! ## Nodes -/

/-- The hidden node features: one dense layer and a rectifier. -/
def hid (x : A3 8 256 128) (W0 : A2 128 128) (b0 : A1 128) (b : Fin 8) (n : Fin 256) (k : Fin 128) : EReal :=
  max ((∑ q : Fin 128, x (ix3 b n q) * W0 (ix2 k q)) + b0 (ix1 k)) 0

/-- The node result with the second layer's weights given as two 128 × 128 matrices: the hidden features against the
    first, the messages against the second. -/
def nodeSplit (x msg : A3 8 256 128) (W0 : A2 128 128) (b0 : A1 128) (Wn Wm : A2 128 128) (b1 : A1 128)
    (b : Fin 8) (n : Fin 256) (o : Fin 128) : EReal :=
  max (((∑ k : Fin 128, hid x W0 b0 b n k * Wn (ix2 o k)) + (∑ k : Fin 128, msg (ix3 b n k) * Wm (ix2 o k)))
    + b1 (ix1 o)) 0

/-- The row the second layer reads when the hidden features and the messages are joined along the last axis. -/
def joinedRow (x msg : A3 8 256 128) (W0 : A2 128 128) (b0 : A1 128) (b : Fin 8) (n : Fin 256) (k : Fin 256) : EReal :=
  if h : k.val < 128 then hid x W0 b0 b n ⟨k.val, h⟩ else msg (ix3 b n ⟨k.val - 128, by omega⟩)

/-- The node result with the joined row against the whole 128 × 256 matrix. -/
def nodeJoined (x msg : A3 8 256 128) (W0 : A2 128 128) (b0 : A1 128) (W1 : A2 128 256) (b1 : A1 128)
    (b : Fin 8) (n : Fin 256) (o : Fin 128) : EReal :=
  max ((∑ k : Fin 256, joinedRow x msg W0 b0 b n k * W1 (ix2 o k)) + b1 (ix1 o)) 0

/-- A sum over 256 terms is the sum over its first 128 plus the sum over its last 128. -/
theorem sum_halves (f : Fin 256 → EReal) :
    (∑ k : Fin 256, f k)
      = (∑ k : Fin 128, f ⟨k.val, by omega⟩) + (∑ k : Fin 128, f ⟨128 + k.val, by omega⟩) := by
  have h := Fin.sum_univ_add (M := EReal) (a := 128) (b := 128) f
  rw [h]
  rfl

/-- The two readings of the node result agree. -/
theorem nodeJoined_eq (x msg : A3 8 256 128) (W0 : A2 128 128) (b0 : A1 128) (W1 : A2 128 256) (b1 : A1 128)
    (b : Fin 8) (n : Fin 256) (o : Fin 128) :
    nodeJoined x msg W0 b0 W1 b1 b n o = nodeSplit x msg W0 b0 (leftCols W1) (rightCols W1) b1 b n o := by
  unfold nodeJoined nodeSplit
  rw [sum_halves]
  have e1 : (∑ k : Fin 128, joinedRow x msg W0 b0 b n ⟨k.val, by omega⟩ * W1 (ix2 o ⟨k.val, by omega⟩))
      = ∑ k : Fin 128, hid x W0 b0 b n k * leftCols W1 (ix2 o k) :=
    Finset.sum_congr rfl fun k _ => by
      unfold joinedRow leftCols
      rw [dif_pos (show (⟨k.val, by omega⟩ : Fin 256).val < 128 from k.isLt)]
  have e2 : (∑ k : Fin 128, joinedRow x msg W0 b0 b n ⟨128 + k.val, by omega⟩ * W1 (ix2 o ⟨128 + k.val, by omega⟩))
      = ∑ k : Fin 128, msg (ix3 b n k) * rightCols W1 (ix2 o k) :=
    Finset.sum_congr rfl fun k _ => by
      unfold joinedRow rightCols
      rw [dif_neg (show ¬ (⟨128 + k.val, by omega⟩ : Fin 256).val < 128 from by show ¬ 128 + k.val < 128; omega)]
      have e : (⟨128 + k.val - 128, by omega⟩ : Fin 128) = k := Fin.ext (by show 128 + k.val - 128 = k.val; omega)
      simp only [e]
  rw [e1, e2]

/-- The node result as an array. -/
def nodeArr (x msg : A3 8 256 128) (W0 : A2 128 128) (b0 : A1 128) (Wn Wm : A2 128 128) (b1 : A1 128) : A3 8 256 128 :=
  fun i => nodeSplit x msg W0 b0 Wn Wm b1 (i 0) (i 1) (i 2)

/-! ## Edges -/

/-- A projection of the node features: one dense layer without bias. -/
def proj (x : A3 8 256 128) (W : A2 128 128) (b : Fin 8) (n : Fin 256) (d : Fin 128) : EReal :=
  ∑ q : Fin 128, x (ix3 b n q) * W (ix2 d q)

/-- A projection as an array. -/
def projArr (x : A3 8 256 128) (W : A2 128 128) : A3 8 256 128 := fun i => proj x W (i 0) (i 1) (i 2)

/-- The pair term of nodes r and j from the two projected arrays. -/
def pairAct (pI pJ : A3 8 256 128) (b3 : A1 128) (b : Fin 8) (r j : Fin 256) (d : Fin 128) : EReal :=
  max ((pI (ix3 b r d) + pJ (ix3 b j d)) + b3 (ix1 d)) 0

/-- The hidden edge features: one dense layer and a rectifier. -/
def edgeHid (ed : A3 8 65536 128) (W2 : A2 128 128) (b2 : A1 128) (b : Fin 8) (e : Fin 65536) (k : Fin 128) : EReal :=
  max ((∑ q : Fin 128, ed (ix3 b e q) * W2 (ix2 k q)) + b2 (ix1 k)) 0

/-- Edge e joins node e / 256 to node e % 256. -/
def rowOf (e : Fin 65536) : Fin 256 := ⟨e.val / 256, by omega⟩
def colOf (e : Fin 65536) : Fin 256 := ⟨e.val % 256, by omega⟩

/-- The edge result from the edge features and the two projected arrays. -/
def edgeAct (ed : A3 8 65536 128) (pI pJ : A3 8 256 128) (W2 : A2 128 128) (b2 : A1 128) (W4 : A2 128 128) (b4 b3 : A1 128)
    (b : Fin 8) (e : Fin 65536) (o : Fin 128) : EReal :=
  max ((∑ k : Fin 128, (edgeHid ed W2 b2 b e k + pairAct pI pJ b3 b (rowOf e) (colOf e) k) * W4 (ix2 o k)) + b4 (ix1 o)) 0

/-- The edge result as an array. -/
def edgeArr (ed : A3 8 65536 128) (pI pJ : A3 8 256 128) (W2 : A2 128 128) (b2 : A1 128) (W4 : A2 128 128) (b4 b3 : A1 128) :
    A3 8 65536 128 :=
  fun i => edgeAct ed pI pJ W2 b2 W4 b4 b3 (i 0) (i 1) (i 2)

end Cert.Spec

end
-- ==== Proof.NodeRegion.lean ====
/-
  The node kernel's region: what its three output arrays hold after the region, entry by entry.

  The body at batch b reads block b of the node features x and of the messages, and the whole weight arrays.  Its three
  stores are, at (0, n, o) of the block:
    max((Σ_k h[n,k]·Wn[o,k]) + (Σ_k msg[b,n,k]·Wm[o,k]) + b1[o], 0)  with  h[n,k] = max(Σ_q x[b,n,q]·W0[k,q] + b0[k], 0),
    Σ_q x[b,n,q]·WI[o,q]   and   Σ_q x[b,n,q]·WJ[o,q].
  Each matrix product contracts the second axis of its left factor with the first axis of the transposed weight, so its
  entry (n, o) is Σ_k l[n,k]·W[o,k]; a change of float format is the identity on the extended reals and the accumulator is
  the zero word, which is 0.  Block b of an output array is written back at rows (b, ·, ·), and the eight blocks fill the array.
-/
import proofs.«166953_j41918880809190_1_alg».proof.Proof.Spec
import proofs.«166953_j41918880809190_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open scoped BigOperators

namespace Cert.KernelIdeal.NodeRegion

open Cert.KernelIdeal Cert.KernelIdeal.Gen Cert.Spec
open Idealize.ShloMosaic.ValueIdx

/-! ## One matrix product at an entry -/

/-- The left factor's row coordinate is the result's row coordinate. -/
theorem lhs_ax0 (i : S256x128.Idx) (q : dot_S256x128_S128x128_S256x128_1_0_0_1_n_n.contr.Idx) :
    (dot_S256x128_S128x128_S256x128_1_0_0_1_n_n.lhsIdx i q 0).val = (i 0).val := by
  unfold DotDims.lhsIdx
  rw [dif_neg (show ¬(0 : Fin S256x128.rank) ∈ dot_S256x128_S128x128_S256x128_1_0_0_1_n_n.lhsBatch by decide), dif_pos (show (0 : Fin S256x128.rank) ∈ dot_S256x128_S128x128_S256x128_1_0_0_1_n_n.lhsNonContracting by decide)]
  rfl
/-- The left factor's column coordinate is the contraction index. -/
theorem lhs_ax1 (i : S256x128.Idx) (q : dot_S256x128_S128x128_S256x128_1_0_0_1_n_n.contr.Idx) :
    (dot_S256x128_S128x128_S256x128_1_0_0_1_n_n.lhsIdx i q 1).val = (q ⟨0, by decide⟩).val :=
  dot_S256x128_S128x128_S256x128_1_0_0_1_n_n.lhsIdx_val_of_single rfl i q
/-- The right factor's row coordinate is the contraction index. -/
theorem rhs_ax0 (i : S256x128.Idx) (q : dot_S256x128_S128x128_S256x128_1_0_0_1_n_n.contr.Idx) :
    (dot_S256x128_S128x128_S256x128_1_0_0_1_n_n.rhsIdx i q 0).val = (q ⟨0, by decide⟩).val :=
  dot_S256x128_S128x128_S256x128_1_0_0_1_n_n.rhsIdx_val_of_single rfl i q
/-- The right factor's column coordinate is the result's column coordinate. -/
theorem rhs_ax1 (i : S256x128.Idx) (q : dot_S256x128_S128x128_S256x128_1_0_0_1_n_n.contr.Idx) :
    (dot_S256x128_S128x128_S256x128_1_0_0_1_n_n.rhsIdx i q 1).val = (i 1).val := by
  unfold DotDims.rhsIdx
  rw [dif_neg (show ¬(1 : Fin S128x128.rank) ∈ dot_S256x128_S128x128_S256x128_1_0_0_1_n_n.rhsBatch by decide), dif_pos (show (1 : Fin S128x128.rank) ∈ dot_S256x128_S128x128_S256x128_1_0_0_1_n_n.rhsNonContracting by decide)]
  rfl

/-- A 256 × 128 by 128 × 128 product into the zero accumulator, at entry (n, o): Σ_k l[n,k]·r[k,o]. -/
theorem mm_apply (l : FVec Ideal S256x128 .bf16) (r : FVec Ideal S128x128 .bf16) (n : Fin 256) (o : Fin 128) :
    matmul dot_S256x128_S128x128_S256x128_1_0_0_1_n_n none l r (constant (F := Ideal) S256x128 .f32 0x00000000#32) (ix2 n o)
      = ∑ k : Fin 128, l (ix2 n k) * r (ix2 k o) := by
  simp only [matmul]
  rw [Ideal.matmul_constant_zero_apply, ← Equiv.sum_comp (ValueIdx.contrEquiv1 dot_S256x128_S128x128_S256x128_1_0_0_1_n_n 128 rfl rfl).symm]
  refine Finset.sum_congr rfl fun k _ => ?_
  have hk := ValueIdx.contrEquiv1_symm_val dot_S256x128_S128x128_S256x128_1_0_0_1_n_n 128 rfl rfl k
  have el : dot_S256x128_S128x128_S256x128_1_0_0_1_n_n.lhsIdx (ix2 n o) ((ValueIdx.contrEquiv1 dot_S256x128_S128x128_S256x128_1_0_0_1_n_n 128 rfl rfl).symm k) = ix2 n k := funext fun a => Fin.ext (by
    match a with
    | ⟨0, _⟩ => exact lhs_ax0 _ _
    | ⟨1, _⟩ => exact (lhs_ax1 _ _).trans hk)
  have er : dot_S256x128_S128x128_S256x128_1_0_0_1_n_n.rhsIdx (ix2 n o) ((ValueIdx.contrEquiv1 dot_S256x128_S128x128_S256x128_1_0_0_1_n_n 128 rfl rfl).symm k) = ix2 k o := funext fun a => Fin.ext (by
    match a with
    | ⟨0, _⟩ => exact (rhs_ax0 _ _).trans hk
    | ⟨1, _⟩ => exact rhs_ax1 _ _)
  rw [el, er]

/-! ## The body's three stores at an entry -/

/-- The block of node features with its unit axis dropped. -/
theorem pay3_apply (v0 : Vec Ideal S1x256x128 .f32) (n : Fin 256) (k : Fin 128) :
    k0_pay3 v0 (ix2 n k) = v0 (ix3 (0 : Fin 1) n k) := by
  unfold k0_pay3
  exact shapeCast_1ab_ab_apply v0 _ n k

/-- The zero word a rectifier compares with is 0. -/
theorem zero_word : Scalar.ofBits (F := Ideal) .f32 0x00000000#32 = (0 : EReal) := Ideal.ofBits_zero_f32

/-- A weight matrix transposed (its change of float format the identity), at (k, o): the matrix at (o, k). -/
theorem tr_apply (w : FVec Ideal S128x128 .f32) (hb : FTy.bits .bf16 < FTy.bits .f32)
    (ht : S128x128.Transposes [1, 0] S128x128) (k o : Fin 128) :
    transpose S128x128 [1, 0] (truncf .bf16 w hb : FVec Ideal S128x128 .bf16) ht (ix2 k o) = w (ix2 o k) :=
  transpose_ix2_apply (a := 128) (b := 128) (truncf .bf16 w hb : FVec Ideal S128x128 .bf16) ht k o

/-- The node store at (u, n, o): the second layer over the hidden features and the messages, then the rectifier. -/
theorem pay4_apply (v0 v2 : Vec Ideal S1x256x128 .f32) (v5 : Vec Ideal S128x128 .f32) (v7 : Vec Ideal S128 .f32)
    (v17 v20 : Vec Ideal S128x128 .f32) (v23 : Vec Ideal S128 .f32) (u : Fin 1) (n : Fin 256) (o : Fin 128) :
    k0_pay4 v0 v2 v5 v7 v17 v20 v23 (ix3 u n o)
      = max (((∑ k : Fin 128, max ((∑ q : Fin 128, v0 (ix3 (0 : Fin 1) n q) * v5 (ix2 k q)) + v7 (ix1 k)) 0 * v17 (ix2 o k))
          + (∑ k : Fin 128, v2 (ix3 (0 : Fin 1) n k) * v20 (ix2 o k))) + v23 (ix1 o)) 0 := by
  unfold k0_pay4
  dsimp only
  rw [shapeCast_ab_1ab_apply, maximumf_apply, addf_apply, addf_apply, mm_apply, mm_apply, broadcastTo_1b_ab_apply,
    shapeCast_a_1a_apply, broadcast_apply, zero_word, shapeCast_self, shapeCast_self]
  refine congrArg (max · 0) (congrArg (· + _) (congrArg₂ (· + ·) (Finset.sum_congr rfl fun k _ => ?_)
    (Finset.sum_congr rfl fun k _ => ?_)))
  · -- the hidden feature k of node n against entry (o, k) of the first half of the second layer's weights
    rw [tr_apply, truncf_apply, maximumf_apply, addf_apply, mm_apply, broadcastTo_1b_ab_apply, shapeCast_a_1a_apply,
      broadcast_apply]
    refine congrArg (· * _) (congrArg (max · 0) (congrArg (· + _) (Finset.sum_congr rfl fun q _ => ?_)))
    rw [pay3_apply, tr_apply]
  · -- message entry k of node n against entry (o, k) of the second half
    rw [tr_apply, truncf_apply, shapeCast_1ab_ab_apply]

/-- A projection store at (u, n, o): the node features against one half of the pair weights. -/
theorem pay1_apply (v0 : Vec Ideal S1x256x128 .f32) (w : Vec Ideal S128x128 .f32) (u : Fin 1) (n : Fin 256) (o : Fin 128) :
    k0_pay1 (k0_pay3 v0) w (ix3 u n o) = ∑ q : Fin 128, v0 (ix3 (0 : Fin 1) n q) * w (ix2 o q) := by
  unfold k0_pay1
  dsimp only
  rw [shapeCast_ab_1ab_apply, mm_apply, shapeCast_self]
  refine Finset.sum_congr rfl fun q _ => ?_
  rw [tr_apply, pay3_apply]

/-- The other projection store, the same term over the other half of the pair weights. -/
theorem pay2_apply (v0 : Vec Ideal S1x256x128 .f32) (w : Vec Ideal S128x128 .f32) (u : Fin 1) (n : Fin 256) (o : Fin 128) :
    k0_pay2 (k0_pay3 v0) w (ix3 u n o) = ∑ q : Fin 128, v0 (ix3 (0 : Fin 1) n q) * w (ix2 o q) := by
  unfold k0_pay2
  dsimp only
  rw [shapeCast_ab_1ab_apply, mm_apply, shapeCast_self]
  refine Finset.sum_congr rfl fun q _ => ?_
  rw [tr_apply, pay3_apply]

/-! ## The blocks the body reads -/

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The grid has eight points, one per batch. -/
theorem lt8 (t : Fin cfg0.N) : t.val < 8 := Nat.lt_of_lt_of_eq t.isLt N_0

/-- The index maps over the grid: the batched windows (node features, messages, the three outputs) are at block
    (t, 0, 0) at point t, every weight window at block 0. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_9.index t (0 : Fin 3) = t.val ∧ win0_9.index t (1 : Fin 3) = 0 ∧ win0_9.index t (2 : Fin 3) = 0)
    ∧ (win0_10.index t (0 : Fin 3) = t.val ∧ win0_10.index t (1 : Fin 3) = 0 ∧ win0_10.index t (2 : Fin 3) = 0)
    ∧ (win0_11.index t (0 : Fin 3) = t.val ∧ win0_11.index t (1 : Fin 3) = 0 ∧ win0_11.index t (2 : Fin 3) = 0)
    ∧ (win0_2.index t (0 : Fin 2) = 0 ∧ win0_2.index t (1 : Fin 2) = 0)
    ∧ win0_3.index t (0 : Fin 1) = 0
    ∧ (win0_4.index t (0 : Fin 2) = 0 ∧ win0_4.index t (1 : Fin 2) = 0)
    ∧ (win0_5.index t (0 : Fin 2) = 0 ∧ win0_5.index t (1 : Fin 2) = 0)
    ∧ win0_6.index t (0 : Fin 1) = 0
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- Block t of the node features, at (u, n, q), is the array at (t, n, q). -/
theorem blk_x (c : Dev nD) (t : Fin cfg0.N) (u : Fin 1) (n : Fin 256) (q : Fin 128) :
    (iblk0 V c 0 t : Vec Ideal S1x256x128 .f32) (ix3 u n q)
      = (V c main_arg0 : S8x256x128.Idx → EReal) (ix3 (⟨t.val, lt8 t⟩ : Fin 8) n q) := by
  obtain ⟨⟨e0, e1, e2⟩, -⟩ := idx_facts t
  unfold iblk0
  rw [View.read_apply]
  show V c main_arg0 _ = V c main_arg0 _
  congr 1
  funext a
  apply Fin.ext
  match a with
  | ⟨0, _⟩ => show win0_0.index t (0 : Fin 3) * 1 + 1 * u.val = t.val; rw [e0]; omega
  | ⟨1, _⟩ => show win0_0.index t (1 : Fin 3) * 256 + 1 * n.val = n.val; rw [e1]; omega
  | ⟨2, _⟩ => show win0_0.index t (2 : Fin 3) * 128 + 1 * q.val = q.val; rw [e2]; omega

/-- Block t of the messages, at (u, n, q), is the array at (t, n, q). -/
theorem blk_m (c : Dev nD) (t : Fin cfg0.N) (u : Fin 1) (n : Fin 256) (q : Fin 128) :
    (iblk0 V c 1 t : Vec Ideal S1x256x128 .f32) (ix3 u n q)
      = (V c main_arg2 : S8x256x128.Idx → EReal) (ix3 (⟨t.val, lt8 t⟩ : Fin 8) n q) := by
  obtain ⟨-, ⟨e0, e1, e2⟩, -⟩ := idx_facts t
  unfold iblk0
  rw [View.read_apply]
  show V c main_arg2 _ = V c main_arg2 _
  congr 1
  funext a
  apply Fin.ext
  match a with
  | ⟨0, _⟩ => show win0_1.index t (0 : Fin 3) * 1 + 1 * u.val = t.val; rw [e0]; omega
  | ⟨1, _⟩ => show win0_1.index t (1 : Fin 3) * 256 + 1 * n.val = n.val; rw [e1]; omega
  | ⟨2, _⟩ => show win0_1.index t (2 : Fin 3) * 128 + 1 * q.val = q.val; rw [e2]; omega

/-- The first layer's weights are staged whole: their block at any point is the array. -/
theorem blk_W0 (c : Dev nD) (t : Fin cfg0.N) :
    (iblk0 V c 2 t : Vec Ideal S128x128 .f32) = (V c main_arg3 : S128x128.Idx → EReal) := by
  obtain ⟨e0, e1⟩ := (idx_facts t).2.2.2.2.2.1
  funext j
  unfold iblk0
  rw [View.read_apply]
  show V c main_arg3 _ = V c main_arg3 j
  congr 1
  funext a
  apply Fin.ext
  match a with
  | ⟨0, _⟩ => show win0_2.index t (0 : Fin 2) * 128 + 1 * (j 0).val = (j 0).val; rw [e0]; omega
  | ⟨1, _⟩ => show win0_2.index t (1 : Fin 2) * 128 + 1 * (j 1).val = (j 1).val; rw [e1]; omega

/-- The first layer's bias is staged whole. -/
theorem blk_b0 (c : Dev nD) (t : Fin cfg0.N) :
    (iblk0 V c 3 t : Vec Ideal S128 .f32) = (V c main_arg4 : S128.Idx → EReal) := by
  have e0 := (idx_facts t).2.2.2.2.2.2.1
  funext j
  unfold iblk0
  rw [View.read_apply]
  show V c main_arg4 _ = V c main_arg4 j
  congr 1
  funext a
  apply Fin.ext
  match a with
  | ⟨0, _⟩ => show win0_3.index t (0 : Fin 1) * 128 + 1 * (j 0).val = (j 0).val; rw [e0]; omega

/-- The second layer's weights against the hidden features are staged whole. -/
theorem blk_Wn (c : Dev nD) (t : Fin cfg0.N) :
    (iblk0 V c 4 t : Vec Ideal S128x128 .f32) = (V c main_v0 : S128x128.Idx → EReal) := by
  obtain ⟨e0, e1⟩ := (idx_facts t).2.2.2.2.2.2.2.1
  funext j
  unfold iblk0
  rw [View.read_apply]
  show V c main_v0 _ = V c main_v0 j
  congr 1
  funext a
  apply Fin.ext
  match a with
  | ⟨0, _⟩ => show win0_4.index t (0 : Fin 2) * 128 + 1 * (j 0).val = (j 0).val; rw [e0]; omega
  | ⟨1, _⟩ => show win0_4.index t (1 : Fin 2) * 128 + 1 * (j 1).val = (j 1).val; rw [e1]; omega

/-- The second layer's weights against the messages are staged whole. -/
theorem blk_Wm (c : Dev nD) (t : Fin cfg0.N) :
    (iblk0 V c 5 t : Vec Ideal S128x128 .f32) = (V c main_v1 : S128x128.Idx → EReal) := by
  obtain ⟨e0, e1⟩ := (idx_facts t).2.2.2.2.2.2.2.2.1
  funext j
  unfold iblk0
  rw [View.read_apply]
  show V c main_v1 _ = V c main_v1 j
  congr 1
  funext a
  apply Fin.ext
  match a with
  | ⟨0, _⟩ => show win0_5.index t (0 : Fin 2) * 128 + 1 * (j 0).val = (j 0).val; rw [e0]; omega
  | ⟨1, _⟩ => show win0_5.index t (1 : Fin 2) * 128 + 1 * (j 1).val = (j 1).val; rw [e1]; omega

/-- The second layer's bias is staged whole. -/
theorem blk_b1 (c : Dev nD) (t : Fin cfg0.N) :
    (iblk0 V c 6 t : Vec Ideal S128 .f32) = (V c main_arg6 : S128.Idx → EReal) := by
  have e0 := (idx_facts t).2.2.2.2.2.2.2.2.2.1
  funext j
  unfold iblk0
  rw [View.read_apply]
  show V c main_arg6 _ = V c main_arg6 j
  congr 1
  funext a
  apply Fin.ext
  match a with
  | ⟨0, _⟩ => show win0_6.index t (0 : Fin 1) * 128 + 1 * (j 0).val = (j 0).val; rw [e0]; omega

/-- The first half of the pair weights is staged whole. -/
theorem blk_WI (c : Dev nD) (t : Fin cfg0.N) :
    (iblk0 V c 7 t : Vec Ideal S128x128 .f32) = (V c main_v2 : S128x128.Idx → EReal) := by
  obtain ⟨e0, e1⟩ := (idx_facts t).2.2.2.2.2.2.2.2.2.2.1
  funext j
  unfold iblk0
  rw [View.read_apply]
  show V c main_v2 _ = V c main_v2 j
  congr 1
  funext a
  apply Fin.ext
  match a with
  | ⟨0, _⟩ => show win0_7.index t (0 : Fin 2) * 128 + 1 * (j 0).val = (j 0).val; rw [e0]; omega
  | ⟨1, _⟩ => show win0_7.index t (1 : Fin 2) * 128 + 1 * (j 1).val = (j 1).val; rw [e1]; omega

/-- The second half of the pair weights is staged whole. -/
theorem blk_WJ (c : Dev nD) (t : Fin cfg0.N) :
    (iblk0 V c 8 t : Vec Ideal S128x128 .f32) = (V c main_v3 : S128x128.Idx → EReal) := by
  obtain ⟨e0, e1⟩ := (idx_facts t).2.2.2.2.2.2.2.2.2.2.2
  funext j
  unfold iblk0
  rw [View.read_apply]
  show V c main_v3 _ = V c main_v3 j
  congr 1
  funext a
  apply Fin.ext
  match a with
  | ⟨0, _⟩ => show win0_8.index t (0 : Fin 2) * 128 + 1 * (j 0).val = (j 0).val; rw [e0]; omega
  | ⟨1, _⟩ => show win0_8.index t (1 : Fin 2) * 128 + 1 * (j 1).val = (j 1).val; rw [e1]; omega

/-! ## One entry of a store against the specification -/

/-- An index of the 8 × 256 × 128 array from its coordinates' values. -/
theorem idx_eq (i : S8x256x128.Idx) (b : Fin 8) (n : Fin 256) (o : Fin 128)
    (h0 : (i 0).val = b.val) (h1 : (i 1).val = n.val) (h2 : (i 2).val = o.val) : i = ix3 b n o :=
  funext fun a => match a with
    | ⟨0, _⟩ => Fin.ext h0
    | ⟨1, _⟩ => Fin.ext h1
    | ⟨2, _⟩ => Fin.ext h2

/-- When the two batched blocks are rows (b, ·, ·) of the node features and of the messages, entry y of the node store is
    the node result at (b, y₁, y₂). -/
theorem node_point (X M : A3 8 256 128) (W0 : A2 128 128) (b0 : A1 128) (Wn Wm : A2 128 128) (b1 : A1 128)
    (x0 x1 : Vec Ideal S1x256x128 .f32) (b : Fin 8)
    (h0 : ∀ (u : Fin 1) (n : Fin 256) (q : Fin 128), x0 (ix3 u n q) = X (ix3 b n q))
    (h1 : ∀ (u : Fin 1) (n : Fin 256) (q : Fin 128), x1 (ix3 u n q) = M (ix3 b n q))
    (y : S1x256x128.Idx) (i : S8x256x128.Idx)
    (hi0 : (i 0).val = b.val) (hi1 : (i 1).val = (y 1).val) (hi2 : (i 2).val = (y 2).val) :
    k0_pay4 x0 x1 W0 b0 Wn Wm b1 y = nodeArr X M W0 b0 Wn Wm b1 i := by
  obtain ⟨u, n, o, rfl⟩ : ∃ (u : Fin 1) (n : Fin 256) (o : Fin 128), y = ix3 u n o := ⟨y 0, y 1, y 2, eq_ix3 y⟩
  obtain rfl : i = ix3 b n o := idx_eq i b n o hi0 hi1 hi2
  rw [pay4_apply]
  simp only [h0, h1]
  rfl

/-- When the batched block is rows (b, ·, ·) of the node features, entry y of the first projection store is the
    projection at (b, y₁, y₂). -/
theorem projI_point (X : A3 8 256 128) (W : A2 128 128) (x0 : Vec Ideal S1x256x128 .f32) (b : Fin 8)
    (h0 : ∀ (u : Fin 1) (n : Fin 256) (q : Fin 128), x0 (ix3 u n q) = X (ix3 b n q))
    (y : S1x256x128.Idx) (i : S8x256x128.Idx)
    (hi0 : (i 0).val = b.val) (hi1 : (i 1).val = (y 1).val) (hi2 : (i 2).val = (y 2).val) :
    k0_pay1 (k0_pay3 x0) W y = projArr X W i := by
  obtain ⟨u, n, o, rfl⟩ : ∃ (u : Fin 1) (n : Fin 256) (o : Fin 128), y = ix3 u n o := ⟨y 0, y 1, y 2, eq_ix3 y⟩
  obtain rfl : i = ix3 b n o := idx_eq i b n o hi0 hi1 hi2
  rw [pay1_apply]
  simp only [h0]
  rfl

/-- The same for the second projection store. -/
theorem projJ_point (X : A3 8 256 128) (W : A2 128 128) (x0 : Vec Ideal S1x256x128 .f32) (b : Fin 8)
    (h0 : ∀ (u : Fin 1) (n : Fin 256) (q : Fin 128), x0 (ix3 u n q) = X (ix3 b n q))
    (y : S1x256x128.Idx) (i : S8x256x128.Idx)
    (hi0 : (i 0).val = b.val) (hi1 : (i 1).val = (y 1).val) (hi2 : (i 2).val = (y 2).val) :
    k0_pay2 (k0_pay3 x0) W y = projArr X W i := by
  obtain ⟨u, n, o, rfl⟩ : ∃ (u : Fin 1) (n : Fin 256) (o : Fin 128), y = ix3 u n o := ⟨y 0, y 1, y 2, eq_ix3 y⟩
  obtain rfl : i = ix3 b n o := idx_eq i b n o hi0 hi1 hi2
  rw [pay2_apply]
  simp only [h0]
  rfl

/-! ## What each point writes back, and the arrays after the region -/

/-- What point t writes back to the node output is block t of the node result. -/
theorem flushed9_eq (c : Dev nD) (t : Fin cfg0.N) :
    (dat0 V c).flushed 9 t = ((cfg0.win 9).blk t).view.read (Elt Ideal) (nodeArr (V c main_arg0) (V c main_arg2) (V c main_arg3) (V c main_arg4) (V c main_v0) (V c main_v1) (V c main_arg6)) := by
  show (cfg0.win 9).cut (grid0.coords t) ((dat0 V c).after 9 t) = _
  rw [after0_9]
  unfold out0_9
  rw [View.canon_unit_zero hz3]
  simp only [View.ld_unit_zero (S := S1x256x128) hz3, View.ld_unit_zero (S := S128x128) hz2, View.ld_unit_zero (S := S128) hz1]
  rw [blk_W0, blk_b0, blk_Wn, blk_Wm, blk_b1]
  obtain ⟨e0, e1, e2⟩ := (idx_facts t).2.2.1
  funext y
  show k0_pay4 (iblk0 V c 0 t) (iblk0 V c 1 t) (V c main_arg3) (V c main_arg4) (V c main_v0) (V c main_v1) (V c main_arg6) y
    = nodeArr (V c main_arg0) (V c main_arg2) (V c main_arg3) (V c main_arg4) (V c main_v0) (V c main_v1) (V c main_arg6)
        (((cfg0.win 9).blk t).view.emb y)
  refine node_point _ _ _ _ _ _ _ (iblk0 V c 0 t) (iblk0 V c 1 t) ⟨t.val, lt8 t⟩ (blk_x V c t) (blk_m V c t) y _ ?_ ?_ ?_
  · show win0_9.index t (0 : Fin 3) * 1 + 1 * (y 0).val = t.val
    have hy : (y 0).val < 1 := (y 0).isLt
    rw [e0]; omega
  · show win0_9.index t (1 : Fin 3) * 256 + 1 * (y 1).val = (y 1).val
    rw [e1]; omega
  · show win0_9.index t (2 : Fin 3) * 128 + 1 * (y 2).val = (y 2).val
    rw [e2]; omega

/-- What point t writes back to this output is block t of the projection of the node features. -/
theorem flushed10_eq (c : Dev nD) (t : Fin cfg0.N) :
    (dat0 V c).flushed 10 t = ((cfg0.win 10).blk t).view.read (Elt Ideal) (projArr (V c main_arg0) (V c main_v2)) := by
  show (cfg0.win 10).cut (grid0.coords t) ((dat0 V c).after 10 t) = _
  rw [after0_10]
  unfold out0_10
  rw [View.canon_unit_zero hz3]
  simp only [View.ld_unit_zero (S := S1x256x128) hz3, View.ld_unit_zero (S := S128x128) hz2]
  rw [blk_WI]
  obtain ⟨e0, e1, e2⟩ := (idx_facts t).2.2.2.1
  funext y
  show k0_pay1 (k0_pay3 (iblk0 V c 0 t)) (V c main_v2) y = projArr (V c main_arg0) (V c main_v2) (((cfg0.win 10).blk t).view.emb y)
  refine projI_point _ _ (iblk0 V c 0 t) ⟨t.val, lt8 t⟩ (blk_x V c t) y _ ?_ ?_ ?_
  · show win0_10.index t (0 : Fin 3) * 1 + 1 * (y 0).val = t.val
    have hy : (y 0).val < 1 := (y 0).isLt
    rw [e0]; omega
  · show win0_10.index t (1 : Fin 3) * 256 + 1 * (y 1).val = (y 1).val
    rw [e1]; omega
  · show win0_10.index t (2 : Fin 3) * 128 + 1 * (y 2).val = (y 2).val
    rw [e2]; omega

/-- What point t writes back to this output is block t of the projection of the node features. -/
theorem flushed11_eq (c : Dev nD) (t : Fin cfg0.N) :
    (dat0 V c).flushed 11 t = ((cfg0.win 11).blk t).view.read (Elt Ideal) (projArr (V c main_arg0) (V c main_v3)) := by
  show (cfg0.win 11).cut (grid0.coords t) ((dat0 V c).after 11 t) = _
  rw [after0_11]
  unfold out0_11
  rw [View.canon_unit_zero hz3]
  simp only [View.ld_unit_zero (S := S1x256x128) hz3, View.ld_unit_zero (S := S128x128) hz2]
  rw [blk_WJ]
  obtain ⟨e0, e1, e2⟩ := (idx_facts t).2.2.2.2.1
  funext y
  show k0_pay2 (k0_pay3 (iblk0 V c 0 t)) (V c main_v3) y = projArr (V c main_arg0) (V c main_v3) (((cfg0.win 11).blk t).view.emb y)
  refine projJ_point _ _ (iblk0 V c 0 t) ⟨t.val, lt8 t⟩ (blk_x V c t) y _ ?_ ?_ ?_
  · show win0_11.index t (0 : Fin 3) * 1 + 1 * (y 0).val = t.val
    have hy : (y 0).val < 1 := (y 0).isLt
    rw [e0]; omega
  · show win0_11.index t (1 : Fin 3) * 256 + 1 * (y 1).val = (y 1).val
    rw [e1]; omega
  · show win0_11.index t (2 : Fin 3) * 128 + 1 * (y 2).val = (y 2).val
    rw [e2]; omega

/-- An index of the output array is in point t's block iff each coordinate is in the block's range on its axis. -/
theorem mem_blk9 (t : Fin cfg0.N) (i : S8x256x128.Idx) :
    i ∈ ((cfg0.win 9).blk t).view.set ↔ ∀ a : Fin 3, win0_9.index t a * S1x256x128.size a ≤ (i a).val ∧ (i a).val < win0_9.index t a * S1x256x128.size a + S1x256x128.size a := by
  show i ∈ ((View.whole main_v4_0).slice (win0_9.rect t)).set ↔ _
  rw [View.set_slice_whole, Rect.mem_set_unit]
  exact Iff.rfl

/-- Every index (b, n, o) of the output array lies in the block of point b, which is written back. -/
theorem cover9 (i : S8x256x128.Idx) :
    ∃ t : Fin cfg0.N, (cfg0.win 9).flush t = true ∧ i ∈ ((cfg0.win 9).blk t).view.set := by
  have h0 : (i 0).val < 8 := (i 0).isLt
  have h1 : (i 1).val < 256 := (i 1).isLt
  have h2 : (i 2).val < 128 := (i 2).isLt
  let t : Fin cfg0.N := ⟨(i 0).val, Nat.lt_of_lt_of_eq h0 N_0.symm⟩
  obtain ⟨e0, e1, e2⟩ := (idx_facts t).2.2.1
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1
              rw [e0]; show (i 0).val * 1 ≤ (i 0).val ∧ (i 0).val < (i 0).val * 1 + 1; omega
  | ⟨1, _⟩ => show win0_9.index t (1 : Fin 3) * 256 ≤ (i 1).val ∧ (i 1).val < win0_9.index t (1 : Fin 3) * 256 + 256
              rw [e1]; omega
  | ⟨2, _⟩ => show win0_9.index t (2 : Fin 3) * 128 ≤ (i 2).val ∧ (i 2).val < win0_9.index t (2 : Fin 3) * 128 + 128
              rw [e2]; omega

/-- An index of the output array is in point t's block iff each coordinate is in the block's range on its axis. -/
theorem mem_blk10 (t : Fin cfg0.N) (i : S8x256x128.Idx) :
    i ∈ ((cfg0.win 10).blk t).view.set ↔ ∀ a : Fin 3, win0_10.index t a * S1x256x128.size a ≤ (i a).val ∧ (i a).val < win0_10.index t a * S1x256x128.size a + S1x256x128.size a := by
  show i ∈ ((View.whole main_v4_1).slice (win0_10.rect t)).set ↔ _
  rw [View.set_slice_whole, Rect.mem_set_unit]
  exact Iff.rfl

/-- Every index (b, n, o) of the output array lies in the block of point b, which is written back. -/
theorem cover10 (i : S8x256x128.Idx) :
    ∃ t : Fin cfg0.N, (cfg0.win 10).flush t = true ∧ i ∈ ((cfg0.win 10).blk t).view.set := by
  have h0 : (i 0).val < 8 := (i 0).isLt
  have h1 : (i 1).val < 256 := (i 1).isLt
  have h2 : (i 2).val < 128 := (i 2).isLt
  let t : Fin cfg0.N := ⟨(i 0).val, Nat.lt_of_lt_of_eq h0 N_0.symm⟩
  obtain ⟨e0, e1, e2⟩ := (idx_facts t).2.2.2.1
  refine ⟨t, flush0_10 t, ?_⟩
  rw [mem_blk10]
  intro a
  match a with
  | ⟨0, _⟩ => show win0_10.index t (0 : Fin 3) * 1 ≤ (i 0).val ∧ (i 0).val < win0_10.index t (0 : Fin 3) * 1 + 1
              rw [e0]; show (i 0).val * 1 ≤ (i 0).val ∧ (i 0).val < (i 0).val * 1 + 1; omega
  | ⟨1, _⟩ => show win0_10.index t (1 : Fin 3) * 256 ≤ (i 1).val ∧ (i 1).val < win0_10.index t (1 : Fin 3) * 256 + 256
              rw [e1]; omega
  | ⟨2, _⟩ => show win0_10.index t (2 : Fin 3) * 128 ≤ (i 2).val ∧ (i 2).val < win0_10.index t (2 : Fin 3) * 128 + 128
              rw [e2]; omega

/-- An index of the output array is in point t's block iff each coordinate is in the block's range on its axis. -/
theorem mem_blk11 (t : Fin cfg0.N) (i : S8x256x128.Idx) :
    i ∈ ((cfg0.win 11).blk t).view.set ↔ ∀ a : Fin 3, win0_11.index t a * S1x256x128.size a ≤ (i a).val ∧ (i a).val < win0_11.index t a * S1x256x128.size a + S1x256x128.size a := by
  show i ∈ ((View.whole main_v4_2).slice (win0_11.rect t)).set ↔ _
  rw [View.set_slice_whole, Rect.mem_set_unit]
  exact Iff.rfl

/-- Every index (b, n, o) of the output array lies in the block of point b, which is written back. -/
theorem cover11 (i : S8x256x128.Idx) :
    ∃ t : Fin cfg0.N, (cfg0.win 11).flush t = true ∧ i ∈ ((cfg0.win 11).blk t).view.set := by
  have h0 : (i 0).val < 8 := (i 0).isLt
  have h1 : (i 1).val < 256 := (i 1).isLt
  have h2 : (i 2).val < 128 := (i 2).isLt
  let t : Fin cfg0.N := ⟨(i 0).val, Nat.lt_of_lt_of_eq h0 N_0.symm⟩
  obtain ⟨e0, e1, e2⟩ := (idx_facts t).2.2.2.2.1
  refine ⟨t, flush0_11 t, ?_⟩
  rw [mem_blk11]
  intro a
  match a with
  | ⟨0, _⟩ => show win0_11.index t (0 : Fin 3) * 1 ≤ (i 0).val ∧ (i 0).val < win0_11.index t (0 : Fin 3) * 1 + 1
              rw [e0]; show (i 0).val * 1 ≤ (i 0).val ∧ (i 0).val < (i 0).val * 1 + 1; omega
  | ⟨1, _⟩ => show win0_11.index t (1 : Fin 3) * 256 ≤ (i 1).val ∧ (i 1).val < win0_11.index t (1 : Fin 3) * 256 + 256
              rw [e1]; omega
  | ⟨2, _⟩ => show win0_11.index t (2 : Fin 3) * 128 ≤ (i 2).val ∧ (i 2).val < win0_11.index t (2 : Fin 3) * 128 + 128
              rw [e2]; omega

/-- The node output after the region is the node result of the arrays the region found. -/
theorem node_act (c : Dev nD) : (dat0 V c).arrAt 9 cfg0.N
    = nodeArr (V c main_arg0) (V c main_arg2) (V c main_arg3) (V c main_arg4) (V c main_v0) (V c main_v1) (V c main_arg6) :=
  (dat0 V c).arrAt_eq_of_cover 9 _ (fun t _ => flushed9_eq V c t) cover9

/-- The first projected array after the region. -/
theorem node_projI (c : Dev nD) : (dat0 V c).arrAt 10 cfg0.N = projArr (V c main_arg0) (V c main_v2) :=
  (dat0 V c).arrAt_eq_of_cover 10 _ (fun t _ => flushed10_eq V c t) cover10

/-- The second projected array after the region. -/
theorem node_projJ (c : Dev nD) : (dat0 V c).arrAt 11 cfg0.N = projArr (V c main_arg0) (V c main_v3) :=
  (dat0 V c).arrAt_eq_of_cover 11 _ (fun t _ => flushed11_eq V c t) cover11

end Cert.KernelIdeal.NodeRegion

end
-- ==== Proof.EdgeRegion.lean ====
/-
  The edge result of one message-passing layer, as the array the second region of the kernel program leaves.

  A grid point (b, ti) holds rows 4096·ti … 4096·ti + 4095 of batch b of the edge features, node rows 16·ti … 16·ti + 15 of
  the first projected array, all 256 node rows of the second, and the weights and biases whole.  Row y of the block is edge
  e = 4096·ti + y, which joins node e / 256 = 16·ti + y / 256 to node e % 256 = y % 256; so the block the point computes is the
  block of the edge result at those rows, and the 8 × 16 blocks fill the array.
-/
import proofs.«166953_j41918880809190_1_alg».proof.Proof.Spec
import proofs.«166953_j41918880809190_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem

namespace Cert.KernelIdeal.EdgeRegion

open Cert.KernelIdeal Cert.KernelIdeal.Gen Cert.Spec
open Idealize.ShloMosaic.ValueIdx

/-! ## A product of a 4096 × 128 block with a 128 × 128 matrix, read at an entry -/

theorem lhs_axis0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_axis1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_axis0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_axis1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- Entry (y, o) of the product into a zero accumulator is the sum over k of the left factor at (y, k) times the right
    factor at (k, o). -/
theorem matmul_entry {φ₁ φ₂ : FTy} (A : FVec Ideal S4096x128 φ₁) (B : FVec Ideal S128x128 φ₂) (y : Fin 4096) (o : Fin 128) :
    matmul dot_S4096x128_S128x128_S4096x128_1_0_0_1_n_n none A B (constant (F := Ideal) S4096x128 .f32 0x00000000#32) (ix2 y o)
      = ∑ k : Fin 128, A (ix2 y k) * B (ix2 k o) := by
  show FloatOps.matmul dot_S4096x128_S128x128_S4096x128_1_0_0_1_n_n none A B (constant (F := Ideal) S4096x128 .f32 0x00000000#32) (ix2 y o) = _
  rw [Ideal.matmul_constant_zero_apply, ← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ix2 y o) ((ValueIdx.contrEquiv1 dot_S4096x128_S128x128_S4096x128_1_0_0_1_n_n 128 rfl rfl).symm k) = ix2 y k := funext fun a => Fin.ext (by
    match a with
    | ⟨0, _⟩ => exact lhs_axis0 _ _
    | ⟨1, _⟩ => exact (lhs_axis1 _ _).trans hk)
  have er : dot_S4096x128_S128x128_S4096x128_1_0_0_1_n_n.rhsIdx (ix2 y o) ((ValueIdx.contrEquiv1 dot_S4096x128_S128x128_S4096x128_1_0_0_1_n_n 128 rfl rfl).symm k) = ix2 k o := funext fun a => Fin.ext (by
    match a with
    | ⟨0, _⟩ => exact (rhs_axis0 _ _).trans hk
    | ⟨1, _⟩ => exact rhs_axis1 _ _)
  rw [el, er]

/-! ## The layout steps of the pair term, read at an entry -/

section Layout
variable {α : Type}

/-- A 16 × 1 × 128 array spread over 256 middle positions reads, at (r, j, k), its entry (r, 0, k). -/
theorem spread_mid (v : S16x1x128.Idx → α) (h : S16x1x128.Broadcasts S16x256x128) (r : Fin 16) (j : Fin 256) (k : Fin 128) :
    broadcastTo S16x256x128 v h (ix3 r j k) = v (ix3 r (0 : Fin 1) k) := by
  refine broadcastTo_apply v h (ix3 r j k) (ix3 r (0 : Fin 1) k) fun ax => ?_
  match ax with
  | ⟨0, _⟩ => rfl
  | ⟨1, _⟩ => rfl
  | ⟨2, _⟩ => rfl

/-- A 1 × 256 × 128 array spread over 16 leading positions reads, at (r, j, k), its entry (0, j, k). -/
theorem spread_lead (v : S1x256x128.Idx → α) (h : S1x256x128.Broadcasts S16x256x128) (r : Fin 16) (j : Fin 256) (k : Fin 128) :
    broadcastTo S16x256x128 v h (ix3 r j k) = v (ix3 (0 : Fin 1) j k) := by
  refine broadcastTo_apply v h (ix3 r j k) (ix3 (0 : Fin 1) j k) fun ax => ?_
  match ax with
  | ⟨0, _⟩ => rfl
  | ⟨1, _⟩ => rfl
  | ⟨2, _⟩ => rfl

/-- A 1 × 1 × 128 array spread over 16 × 256 positions reads, at (r, j, k), its entry (0, 0, k). -/
theorem spread_both (v : S1x1x128.Idx → α) (h : S1x1x128.Broadcasts S16x256x128) (r : Fin 16) (j : Fin 256) (k : Fin 128) :
    broadcastTo S16x256x128 v h (ix3 r j k) = v (ix3 (0 : Fin 1) (0 : Fin 1) k) := by
  refine broadcastTo_apply v h (ix3 r j k) (ix3 (0 : Fin 1) (0 : Fin 1) k) fun ax => ?_
  match ax with
  | ⟨0, _⟩ => rfl
  | ⟨1, _⟩ => rfl
  | ⟨2, _⟩ => rfl

/-- A 16 × 128 array given a unit middle axis reads, at (r, u, k), its entry (r, k). -/
theorem cast_unit_mid (v : S16x128.Idx → α) (h : S16x128.ShapeCasts S16x1x128) (r : Fin 16) (u : Fin 1) (k : Fin 128) :
    shapeCast S16x1x128 v h (ix3 r u k) = v (ix2 r k) :=
  shapeCast_apply v h _ _ (by
    have hu : u.val = 0 := by omega
    rw [Shape.rowMajor_val_three, Shape.rowMajor_val_two]
    show r.val * 128 + k.val = (r.val * 1 + u.val) * 128 + k.val
    rw [hu]; omega)

/-- A vector of 128 entries given two unit leading axes reads, at (u, u', k), its entry k. -/
theorem cast_unit_two (v : S128.Idx → α) (h : S128.ShapeCasts S1x1x128) (u u' : Fin 1) (k : Fin 128) :
    shapeCast S1x1x128 v h (ix3 u u' k) = v (ix1 k) :=
  shapeCast_apply v h _ _ (by
    have hu : u.val = 0 := by omega
    have hu' : u'.val = 0 := by omega
    rw [Shape.rowMajor_val_three, Shape.rowMajor_val_one]
    show k.val = (u.val * 1 + u'.val) * 128 + k.val
    rw [hu, hu']; omega)

/-- A 16 × 256 × 128 array with its first two axes joined reads, at (y, k), its entry (y / 256, y % 256, k). -/
theorem cast_join (v : S16x256x128.Idx → α) (h : S16x256x128.ShapeCasts S4096x128) (y : Fin 4096) (k : Fin 128) :
    shapeCast S4096x128 v h (ix2 y k)
      = v (ix3 (⟨y.val / 256, by omega⟩ : Fin 16) (⟨y.val % 256, by omega⟩ : Fin 256) k) :=
  shapeCast_apply v h _ _ (by
    rw [Shape.rowMajor_val_three, Shape.rowMajor_val_two]
    show (y.val / 256 * 256 + y.val % 256) * 128 + k.val = y.val * 128 + k.val
    omega)

end Layout

/-! ## The block a grid point computes, entry by entry -/

/-- A weight matrix as the product reads it — narrowed, then transposed — has at (a, b) the matrix's entry (b, a). -/
theorem weights_entry (W : Vec Ideal S128x128 .f32) (perm : List (Fin S128x128.rank)) (h : S128x128.Transposes perm S128x128)
    (hp : perm = [1, 0]) (a b : Fin 128) :
    transpose S128x128 perm (truncf (F := Ideal) .bf16 W bitsLt_bf16_f32) h (ix2 a b) = W (ix2 b a) := by
  subst hp
  exact transpose_ix2_apply _ _ a b

/-- Entry (u, y, o) of the block a grid point stores, from the blocks it holds: x0 the edge rows, x1 and x2 the rows of the
    two projected arrays, x3 and x4 the first layer's weights and bias, x5 and x6 the second layer's, x7 the pair term's bias.
    Row y takes row y / 256 of x1 and row y % 256 of x2. -/
theorem block_entry (x0 : Vec Ideal S1x4096x128 .f32) (x1 : Vec Ideal S1x16x128 .f32) (x2 : Vec Ideal S1x256x128 .f32)
    (x3 : Vec Ideal S128x128 .f32) (x4 : Vec Ideal S128 .f32) (x5 : Vec Ideal S128x128 .f32) (x6 : Vec Ideal S128 .f32)
    (x7 : Vec Ideal S128 .f32) (u : Fin 1) (y : Fin 4096) (o : Fin 128) :
    k1_pay1 (F := Ideal) (k1_pay2 x0 x1 x2 x7 x3 x4 x5) (k1_pay3 x6) (ix3 u y o)
      = max ((∑ k : Fin 128, (max ((∑ q : Fin 128, x0 (ix3 (0 : Fin 1) y q) * x3 (ix2 k q)) + x4 (ix1 k)) 0
            + max ((x1 (ix3 (0 : Fin 1) (⟨y.val / 256, by omega⟩ : Fin 16) k)
                + x2 (ix3 (0 : Fin 1) (⟨y.val % 256, by omega⟩ : Fin 256) k)) + x7 (ix1 k)) 0) * x5 (ix2 o k))
          + x6 (ix1 o)) 0 := by
  simp only [k1_pay1, k1_pay2, k1_pay3, shapeCast_ab_1ab_apply, maximumf_apply, addf_apply, broadcast_apply, matmul_entry,
    truncf_apply, weights_entry _ _ _ rfl, broadcastTo_1b_ab_apply, shapeCast_a_1a_apply, shapeCast_1ab_ab_apply, cast_join,
    spread_mid, spread_lead, spread_both, cast_unit_mid, cast_unit_two, Ideal.ofBits_def, Ideal.ofBits_zero_f32]

/-! ## The block is the edge result's block -/

/-- Row y of the block at (b, ti) is edge 4096·ti + y of batch b, which joins node 16·ti + y / 256 to node y % 256: when the
    blocks x0, x1, x2 are those rows of the arrays (h0, h1, h2) and the others are the weights and biases whole (h3 … h7), the
    entry the point stores is the edge result's. -/
theorem block_is_edge (ed : A3 8 65536 128) (pI pJ : A3 8 256 128) (W2 : A2 128 128) (b2 : A1 128) (W4 : A2 128 128)
    (b4 b3 : A1 128) (x0 : Vec Ideal S1x4096x128 .f32) (x1 : Vec Ideal S1x16x128 .f32) (x2 : Vec Ideal S1x256x128 .f32)
    (x3 : Vec Ideal S128x128 .f32) (x4 : Vec Ideal S128 .f32) (x5 : Vec Ideal S128x128 .f32) (x6 : Vec Ideal S128 .f32)
    (x7 : Vec Ideal S128 .f32) (b : Fin 8) (ti : Fin 16)
    (h0 : ∀ (y : Fin 4096) (q : Fin 128),
      x0 (ix3 (0 : Fin 1) y q) = ed (ix3 b (⟨4096 * ti.val + y.val, by omega⟩ : Fin 65536) q))
    (h1 : ∀ (r : Fin 16) (k : Fin 128),
      x1 (ix3 (0 : Fin 1) r k) = pI (ix3 b (⟨16 * ti.val + r.val, by omega⟩ : Fin 256) k))
    (h2 : ∀ (j : Fin 256) (k : Fin 128), x2 (ix3 (0 : Fin 1) j k) = pJ (ix3 b j k))
    (h3 : ∀ (k q : Fin 128), x3 (ix2 k q) = W2 (ix2 k q)) (h4 : ∀ k : Fin 128, x4 (ix1 k) = b2 (ix1 k))
    (h5 : ∀ (o k : Fin 128), x5 (ix2 o k) = W4 (ix2 o k)) (h6 : ∀ o : Fin 128, x6 (ix1 o) = b4 (ix1 o))
    (h7 : ∀ k : Fin 128, x7 (ix1 k) = b3 (ix1 k))
    (u : Fin 1) (y : Fin 4096) (o : Fin 128) :
    k1_pay1 (F := Ideal) (k1_pay2 x0 x1 x2 x7 x3 x4 x5) (k1_pay3 x6) (ix3 u y o)
      = edgeAct ed pI pJ W2 b2 W4 b4 b3 b (⟨4096 * ti.val + y.val, by omega⟩ : Fin 65536) o := by
  have er : rowOf (⟨4096 * ti.val + y.val, by omega⟩ : Fin 65536)
      = (⟨16 * ti.val + (⟨y.val / 256, by omega⟩ : Fin 16).val, by show 16 * ti.val + y.val / 256 < 256; omega⟩ : Fin 256) :=
    Fin.ext (by show (4096 * ti.val + y.val) / 256 = 16 * ti.val + y.val / 256; omega)
  have ec : colOf (⟨4096 * ti.val + y.val, by omega⟩ : Fin 65536) = (⟨y.val % 256, by omega⟩ : Fin 256) :=
    Fin.ext (by show (4096 * ti.val + y.val) % 256 = y.val % 256; omega)
  rw [block_entry]
  unfold edgeAct edgeHid pairAct
  rw [er, ec]
  simp only [h0, h1, h2, h3, h4, h5, h6, h7]

/-! ## What a grid point writes back -/

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The block indices, decided over the 8 × 16 grid points: the output's block index is (b, ti, 0) with b below 8 and ti below
    16; the edge rows and the first projected array move with it, the second projected array with its batch only, and the
    weights and biases stay at block 0. -/
theorem index_facts : ∀ t : Fin cfg1.N,
    win1_8.index t (0 : Fin 3) < 8 ∧ win1_8.index t (1 : Fin 3) < 16 ∧ win1_8.index t (2 : Fin 3) = 0
    ∧ win1_0.index t (0 : Fin 3) = win1_8.index t (0 : Fin 3) ∧ win1_0.index t (1 : Fin 3) = win1_8.index t (1 : Fin 3)
    ∧ win1_0.index t (2 : Fin 3) = 0
    ∧ win1_1.index t (0 : Fin 3) = win1_8.index t (0 : Fin 3) ∧ win1_1.index t (1 : Fin 3) = win1_8.index t (1 : Fin 3)
    ∧ win1_1.index t (2 : Fin 3) = 0
    ∧ win1_2.index t (0 : Fin 3) = win1_8.index t (0 : Fin 3) ∧ win1_2.index t (1 : Fin 3) = 0
    ∧ win1_2.index t (2 : Fin 3) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 1) = 0 :=
  (by decide +kernel : ∀ t : Fin grid1.N, _)

/-- Every block index (b, ti, 0) is some grid point's. -/
theorem index_onto : ∀ (q0 : Fin 8) (q1 : Fin 16), ∃ t : Fin cfg1.N, win1_8.index t = ![q0.val, q1.val, 0] :=
  (by decide +kernel : ∀ (q0 : Fin 8) (q1 : Fin 16), ∃ t : Fin grid1.N, win1_8.index t = ![q0.val, q1.val, 0])

variable (V : (c : Dev nD) → (b : Ref sig .tc) → Buf (Elt Ideal) ((c : Thread nD τ).loc b))

/-- What grid point t writes back is its block of the edge result of the arrays as the region finds them. -/
theorem flushed_eq (c : Dev nD) (t : Fin cfg1.N) :
    (dat1 V c).flushed 8 t = ((cfg1.win 8).blk t).view.read (Elt Ideal)
      (edgeArr (V c main_arg1) (V c main_v4_1) (V c main_v4_2) (V c main_arg7) (V c main_arg8) (V c main_arg11)
        (V c main_arg12) (V c main_arg10)) := by
  show (cfg1.win 8).cut (grid1.coords t) ((dat1 V c).after 8 t) = _
  rw [after1_8]
  unfold out1_8
  rw [View.canon_unit_zero zeros3]
  simp only [View.ld_unit_zero (S := S1x4096x128) zeros3, View.ld_unit_zero (S := S1x16x128) zeros3,
    View.ld_unit_zero (S := S1x256x128) zeros3, View.ld_unit_zero (S := S128x128) zeros2, View.ld_unit_zero (S := S128) zeros1]
  obtain ⟨f80, f81, f82, f00, f01, f02, f10, f11, f12, f20, f21, f22, f30, f31, f40, f50, f51, f60, f70⟩ := index_facts t
  -- each input block, entry by entry, as rows of its array
  have g0 : ∀ (y : Fin 4096) (q : Fin 128), (iblk1 V c 0 t : Vec Ideal S1x4096x128 .f32) (ix3 (0 : Fin 1) y q)
      = (V c main_arg1 : A3 8 65536 128) (ix3 (⟨win1_8.index t (0 : Fin 3), f80⟩ : Fin 8)
          (⟨4096 * win1_8.index t (1 : Fin 3) + y.val, by omega⟩ : Fin 65536) q) := fun y q => by
    show V c main_arg1 (((cfg1.win 0).blk t).view.emb (ix3 (0 : Fin 1) y q)) = _
    refine congrArg _ (funext fun a => Fin.ext ?_)
    match a with
    | ⟨0, _⟩ => show win1_0.index t (0 : Fin 3) * 1 + 1 * 0 = win1_8.index t (0 : Fin 3); omega
    | ⟨1, _⟩ => show win1_0.index t (1 : Fin 3) * 4096 + 1 * y.val = 4096 * win1_8.index t (1 : Fin 3) + y.val; omega
    | ⟨2, _⟩ => show win1_0.index t (2 : Fin 3) * 128 + 1 * q.val = q.val; omega
  have g1 : ∀ (r : Fin 16) (k : Fin 128), (iblk1 V c 1 t : Vec Ideal S1x16x128 .f32) (ix3 (0 : Fin 1) r k)
      = (V c main_v4_1 : A3 8 256 128) (ix3 (⟨win1_8.index t (0 : Fin 3), f80⟩ : Fin 8)
          (⟨16 * win1_8.index t (1 : Fin 3) + r.val, by omega⟩ : Fin 256) k) := fun r k => by
    show V c main_v4_1 (((cfg1.win 1).blk t).view.emb (ix3 (0 : Fin 1) r k)) = _
    refine congrArg _ (funext fun a => Fin.ext ?_)
    match a with
    | ⟨0, _⟩ => show win1_1.index t (0 : Fin 3) * 1 + 1 * 0 = win1_8.index t (0 : Fin 3); omega
    | ⟨1, _⟩ => show win1_1.index t (1 : Fin 3) * 16 + 1 * r.val = 16 * win1_8.index t (1 : Fin 3) + r.val; omega
    | ⟨2, _⟩ => show win1_1.index t (2 : Fin 3) * 128 + 1 * k.val = k.val; omega
  have g2 : ∀ (j : Fin 256) (k : Fin 128), (iblk1 V c 2 t : Vec Ideal S1x256x128 .f32) (ix3 (0 : Fin 1) j k)
      = (V c main_v4_2 : A3 8 256 128) (ix3 (⟨win1_8.index t (0 : Fin 3), f80⟩ : Fin 8) j k) := fun j k => by
    show V c main_v4_2 (((cfg1.win 2).blk t).view.emb (ix3 (0 : Fin 1) j k)) = _
    refine congrArg _ (funext fun a => Fin.ext ?_)
    match a with
    | ⟨0, _⟩ => show win1_2.index t (0 : Fin 3) * 1 + 1 * 0 = win1_8.index t (0 : Fin 3); omega
    | ⟨1, _⟩ => show win1_2.index t (1 : Fin 3) * 256 + 1 * j.val = j.val; omega
    | ⟨2, _⟩ => show win1_2.index t (2 : Fin 3) * 128 + 1 * k.val = k.val; omega
  have g3 : ∀ (k q : Fin 128), (iblk1 V c 3 t : Vec Ideal S128x128 .f32) (ix2 k q) = (V c main_arg7 : A2 128 128) (ix2 k q) :=
    fun k q => by
    show V c main_arg7 (((cfg1.win 3).blk t).view.emb (ix2 k q)) = _
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * q.val = q.val; omega
  have g4 : ∀ k : Fin 128, (iblk1 V c 4 t : Vec Ideal S128 .f32) (ix1 k) = (V c main_arg8 : A1 128) (ix1 k) := fun k => by
    show V c main_arg8 (((cfg1.win 4).blk t).view.emb (ix1 k)) = _
    refine congrArg _ (funext fun a => Fin.ext ?_)
    match a with
    | ⟨0, _⟩ => show win1_4.index t (0 : Fin 1) * 128 + 1 * k.val = k.val; omega
  have g5 : ∀ (o k : Fin 128), (iblk1 V c 5 t : Vec Ideal S128x128 .f32) (ix2 o k) = (V c main_arg11 : A2 128 128) (ix2 o k) :=
    fun o k => by
    show V c main_arg11 (((cfg1.win 5).blk t).view.emb (ix2 o k)) = _
    refine congrArg _ (funext fun a => Fin.ext ?_)
    match a with
    | ⟨0, _⟩ => show win1_5.index t (0 : Fin 2) * 128 + 1 * o.val = o.val; omega
    | ⟨1, _⟩ => show win1_5.index t (1 : Fin 2) * 128 + 1 * k.val = k.val; omega
  have g6 : ∀ o : Fin 128, (iblk1 V c 6 t : Vec Ideal S128 .f32) (ix1 o) = (V c main_arg12 : A1 128) (ix1 o) := fun o => by
    show V c main_arg12 (((cfg1.win 6).blk t).view.emb (ix1 o)) = _
    refine congrArg _ (funext fun a => Fin.ext ?_)
    match a with
    | ⟨0, _⟩ => show win1_6.index t (0 : Fin 1) * 128 + 1 * o.val = o.val; omega
  have g7 : ∀ k : Fin 128, (iblk1 V c 7 t : Vec Ideal S128 .f32) (ix1 k) = (V c main_arg10 : A1 128) (ix1 k) := fun k => by
    show V c main_arg10 (((cfg1.win 7).blk t).view.emb (ix1 k)) = _
    refine congrArg _ (funext fun a => Fin.ext ?_)
    match a with
    | ⟨0, _⟩ => show win1_7.index t (0 : Fin 1) * 128 + 1 * k.val = k.val; omega
  funext y
  obtain ⟨u, yy, o, rfl⟩ : ∃ (u : Fin 1) (yy : Fin 4096) (o : Fin 128), y = ix3 u yy o := ⟨y 0, y 1, y 2, eq_ix3 y⟩
  refine (block_is_edge (V c main_arg1) (V c main_v4_1) (V c main_v4_2) (V c main_arg7) (V c main_arg8) (V c main_arg11)
    (V c main_arg12) (V c main_arg10) (iblk1 V c 0 t) (iblk1 V c 1 t) (iblk1 V c 2 t) (iblk1 V c 3 t) (iblk1 V c 4 t)
    (iblk1 V c 5 t) (iblk1 V c 6 t) (iblk1 V c 7 t) (⟨win1_8.index t (0 : Fin 3), f80⟩ : Fin 8)
    (⟨win1_8.index t (1 : Fin 3), f81⟩ : Fin 16) g0 g1 g2 g3 g4 g5 g6 g7 u yy o).trans ?_
  -- the entry's place in the array: batch b, edge 4096·ti + y, feature o
  show _ = edgeAct (V c main_arg1) (V c main_v4_1) (V c main_v4_2) (V c main_arg7) (V c main_arg8) (V c main_arg11)
    (V c main_arg12) (V c main_arg10) ((((cfg1.win 8).blk t).view.emb (ix3 u yy o)) 0)
    ((((cfg1.win 8).blk t).view.emb (ix3 u yy o)) 1) ((((cfg1.win 8).blk t).view.emb (ix3 u yy o)) 2)
  have a0 : (⟨win1_8.index t (0 : Fin 3), f80⟩ : Fin 8) = (((cfg1.win 8).blk t).view.emb (ix3 u yy o)) 0 :=
    Fin.ext (by show win1_8.index t (0 : Fin 3) = win1_8.index t (0 : Fin 3) * 1 + 1 * u.val; omega)
  have a1 : (⟨4096 * win1_8.index t (1 : Fin 3) + yy.val, by omega⟩ : Fin 65536) = (((cfg1.win 8).blk t).view.emb (ix3 u yy o)) 1 :=
    Fin.ext (by show 4096 * win1_8.index t (1 : Fin 3) + yy.val = win1_8.index t (1 : Fin 3) * 4096 + 1 * yy.val; omega)
  have a2 : o = (((cfg1.win 8).blk t).view.emb (ix3 u yy o)) 2 :=
    Fin.ext (by show o.val = win1_8.index t (2 : Fin 3) * 128 + 1 * o.val; omega)
  exact congr (congr (congrArg _ a0) a1) a2

/-! ## The blocks fill the array -/

/-- An entry of the array is in grid point t's block iff each coordinate is in the block's range on its axis. -/
theorem mem_block (t : Fin cfg1.N) (i : S8x65536x128.Idx) :
    i ∈ ((cfg1.win 8).blk t).view.set ↔ ∀ a : Fin 3, win1_8.index t a * S1x4096x128.size a ≤ (i a).val
      ∧ (i a).val < win1_8.index t a * S1x4096x128.size a + S1x4096x128.size a := by
  show i ∈ ((View.whole main_v5).slice (win1_8.rect t)).set ↔ _
  rw [View.set_slice_whole, Rect.mem_set_unit]
  exact Iff.rfl

/-- Entry (b, e, o) is in the block of the grid point whose block index is (b, e / 4096, 0). -/
theorem covered (i : S8x65536x128.Idx) :
    ∃ t : Fin cfg1.N, (cfg1.win 8).flush t = true ∧ i ∈ ((cfg1.win 8).blk t).view.set := by
  have hi0 : (i 0).val < 8 := (i 0).isLt
  have hi1 : (i 1).val < 65536 := (i 1).isLt
  have hi2 : (i 2).val < 128 := (i 2).isLt
  obtain ⟨t, ht⟩ := index_onto ⟨(i 0).val, hi0⟩ ⟨(i 1).val / 4096, by omega⟩
  have q0 : win1_8.index t (0 : Fin 3) = (i 0).val := congrFun ht 0
  have q1 : win1_8.index t (1 : Fin 3) = (i 1).val / 4096 := congrFun ht 1
  have q2 : win1_8.index t (2 : Fin 3) = 0 := congrFun ht 2
  refine ⟨t, flush1_8 t, ?_⟩
  rw [mem_block]
  intro a
  match a with
  | ⟨0, _⟩ =>
    show win1_8.index t (0 : Fin 3) * 1 ≤ (i 0).val ∧ (i 0).val < win1_8.index t (0 : Fin 3) * 1 + 1
    omega
  | ⟨1, _⟩ =>
    show win1_8.index t (1 : Fin 3) * 4096 ≤ (i 1).val ∧ (i 1).val < win1_8.index t (1 : Fin 3) * 4096 + 4096
    omega
  | ⟨2, _⟩ =>
    show win1_8.index t (2 : Fin 3) * 128 ≤ (i 2).val ∧ (i 2).val < win1_8.index t (2 : Fin 3) * 128 + 128
    omega

/-- The array the region leaves is the edge result of the arrays as the region finds them. -/
theorem edge_act (c : Dev nD) : (dat1 V c).arrAt 8 cfg1.N
    = edgeArr (V c main_arg1) (V c main_v4_1) (V c main_v4_2) (V c main_arg7) (V c main_arg8) (V c main_arg11) (V c main_arg12) (V c main_arg10) :=
  (dat1 V c).arrAt_eq_of_cover 8 _ (fun t _ => flushed_eq V c t) covered

end Cert.KernelIdeal.EdgeRegion

end
-- ==== Proof.Compose.lean ====
/-
  The two result buffers after the run, as functions of the launch memory.

  The program is a stretch of four host operations (the left and right 128 columns of W1 and of W3 cut out as matrices of
  their own), the node kernel's region (it writes the node result and the two projections pI, pJ) and the edge kernel's
  region (it reads the edge features, pI, pJ and the remaining weights, and writes the edge result). The buffer contents at
  each boundary are a fold from the launch memory; read at the two result buffers, and with each region's value known as a
  function of the contents it is entered with, the fold gives the node result and the edge result of the specification at
  the launch contents of the thirteen arguments.
-/
import proofs.«166953_j41918880809190_1_alg».proof.Proof.Spec
import proofs.«166953_j41918880809190_1_alg».proof.Proof.Gen.KernelIdeal.Frame
import proofs.«166953_j41918880809190_1_alg».proof.Proof.NodeRegion
import proofs.«166953_j41918880809190_1_alg».proof.Proof.EdgeRegion
import Idealize.ShloMosaic.Lib.StableHlo.Run
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Compose

open Cert.KernelIdeal Cert.KernelIdeal.Gen Cert.Spec Cert.KernelIdeal.NodeRegion Cert.KernelIdeal.EdgeRegion

variable (m : (ℓ : Loc nD τ sig) → Buf (Elt Ideal) ℓ) (ρ : Dev nD → PrngReg)

/-! ## The column cuts -/

/-- The slice of columns 0 … 127 of a 128 × 256 matrix is its left half. -/
theorem slice_left (W : A2 128 256) :
    extractStridedSlice S128x128 ![0, 0] W slices_S128x256_S128x128_0_0 = leftCols W :=
  funext fun i => extractStridedSlice_apply ![0, 0] W slices_S128x256_S128x128_0_0 i _ (fun a => match a with
    | ⟨0, _⟩ => by show (i 0).val = 0 + (i 0).val; omega
    | ⟨1, _⟩ => by show (i 1).val = 0 + (i 1).val; omega)

/-- The slice of columns 128 … 255 of a 128 × 256 matrix is its right half. -/
theorem slice_right (W : A2 128 256) :
    extractStridedSlice S128x128 ![0, 128] W slices_S128x256_S128x128_0_128 = rightCols W :=
  funext fun i => extractStridedSlice_apply ![0, 128] W slices_S128x256_S128x128_0_128 i _ (fun a => match a with
    | ⟨0, _⟩ => by show (i 0).val = 0 + (i 0).val; omega
    | ⟨1, _⟩ => by show 128 + (i 1).val = 128 + (i 1).val; rfl)

/-! ## The contents the node region is entered with -/

theorem V1_arg0 (c : Dev nD) : V1 m ρ c main_arg0 = m ((c : Thread nD τ).loc main_arg0) := by
  show StableHlo.after hostOps0 (W0 m ρ c) (Proc.devRef .tc main_arg0) = _
  after_results
theorem V1_arg1 (c : Dev nD) : V1 m ρ c main_arg1 = m ((c : Thread nD τ).loc main_arg1) := by
  show StableHlo.after hostOps0 (W0 m ρ c) (Proc.devRef .tc main_arg1) = _
  after_results
theorem V1_arg2 (c : Dev nD) : V1 m ρ c main_arg2 = m ((c : Thread nD τ).loc main_arg2) := by
  show StableHlo.after hostOps0 (W0 m ρ c) (Proc.devRef .tc main_arg2) = _
  after_results
theorem V1_arg3 (c : Dev nD) : V1 m ρ c main_arg3 = m ((c : Thread nD τ).loc main_arg3) := by
  show StableHlo.after hostOps0 (W0 m ρ c) (Proc.devRef .tc main_arg3) = _
  after_results
theorem V1_arg4 (c : Dev nD) : V1 m ρ c main_arg4 = m ((c : Thread nD τ).loc main_arg4) := by
  show StableHlo.after hostOps0 (W0 m ρ c) (Proc.devRef .tc main_arg4) = _
  after_results
theorem V1_arg5 (c : Dev nD) : V1 m ρ c main_arg5 = m ((c : Thread nD τ).loc main_arg5) := by
  show StableHlo.after hostOps0 (W0 m ρ c) (Proc.devRef .tc main_arg5) = _
  after_results
theorem V1_arg6 (c : Dev nD) : V1 m ρ c main_arg6 = m ((c : Thread nD τ).loc main_arg6) := by
  show StableHlo.after hostOps0 (W0 m ρ c) (Proc.devRef .tc main_arg6) = _
  after_results
theorem V1_arg7 (c : Dev nD) : V1 m ρ c main_arg7 = m ((c : Thread nD τ).loc main_arg7) := by
  show StableHlo.after hostOps0 (W0 m ρ c) (Proc.devRef .tc main_arg7) = _
  after_results
theorem V1_arg8 (c : Dev nD) : V1 m ρ c main_arg8 = m ((c : Thread nD τ).loc main_arg8) := by
  show StableHlo.after hostOps0 (W0 m ρ c) (Proc.devRef .tc main_arg8) = _
  after_results
theorem V1_arg9 (c : Dev nD) : V1 m ρ c main_arg9 = m ((c : Thread nD τ).loc main_arg9) := by
  show StableHlo.after hostOps0 (W0 m ρ c) (Proc.devRef .tc main_arg9) = _
  after_results
theorem V1_arg10 (c : Dev nD) : V1 m ρ c main_arg10 = m ((c : Thread nD τ).loc main_arg10) := by
  show StableHlo.after hostOps0 (W0 m ρ c) (Proc.devRef .tc main_arg10) = _
  after_results
theorem V1_arg11 (c : Dev nD) : V1 m ρ c main_arg11 = m ((c : Thread nD τ).loc main_arg11) := by
  show StableHlo.after hostOps0 (W0 m ρ c) (Proc.devRef .tc main_arg11) = _
  after_results
theorem V1_arg12 (c : Dev nD) : V1 m ρ c main_arg12 = m ((c : Thread nD τ).loc main_arg12) := by
  show StableHlo.after hostOps0 (W0 m ρ c) (Proc.devRef .tc main_arg12) = _
  after_results

theorem V1_v0 (c : Dev nD) : (V1 m ρ c main_v0 : A2 128 128) = leftCols (m ((c : Thread nD τ).loc main_arg5)) := by
  show StableHlo.after hostOps0 (W0 m ρ c) (Proc.devRef .tc main_v0) = _
  after_results
  exact slice_left _
theorem V1_v1 (c : Dev nD) : (V1 m ρ c main_v1 : A2 128 128) = rightCols (m ((c : Thread nD τ).loc main_arg5)) := by
  show StableHlo.after hostOps0 (W0 m ρ c) (Proc.devRef .tc main_v1) = _
  after_results
  exact slice_right _
theorem V1_v2 (c : Dev nD) : (V1 m ρ c main_v2 : A2 128 128) = leftCols (m ((c : Thread nD τ).loc main_arg9)) := by
  show StableHlo.after hostOps0 (W0 m ρ c) (Proc.devRef .tc main_v2) = _
  after_results
  exact slice_left _
theorem V1_v3 (c : Dev nD) : (V1 m ρ c main_v3 : A2 128 128) = rightCols (m ((c : Thread nD τ).loc main_arg9)) := by
  show StableHlo.after hostOps0 (W0 m ρ c) (Proc.devRef .tc main_v3) = _
  after_results
  exact slice_right _

/-! ## The contents the edge region is entered with -/

theorem V2_arg1 (c : Dev nD) : V2 m ρ c main_arg1 = m ((c : Thread nD τ).loc main_arg1) :=
  (W2_of_ne m ρ c main_arg1 (by decide)).trans (V1_arg1 m ρ c)
theorem V2_arg7 (c : Dev nD) : V2 m ρ c main_arg7 = m ((c : Thread nD τ).loc main_arg7) :=
  (W2_of_ne m ρ c main_arg7 (by decide)).trans (V1_arg7 m ρ c)
theorem V2_arg8 (c : Dev nD) : V2 m ρ c main_arg8 = m ((c : Thread nD τ).loc main_arg8) :=
  (W2_of_ne m ρ c main_arg8 (by decide)).trans (V1_arg8 m ρ c)
theorem V2_arg10 (c : Dev nD) : V2 m ρ c main_arg10 = m ((c : Thread nD τ).loc main_arg10) :=
  (W2_of_ne m ρ c main_arg10 (by decide)).trans (V1_arg10 m ρ c)
theorem V2_arg11 (c : Dev nD) : V2 m ρ c main_arg11 = m ((c : Thread nD τ).loc main_arg11) :=
  (W2_of_ne m ρ c main_arg11 (by decide)).trans (V1_arg11 m ρ c)
theorem V2_arg12 (c : Dev nD) : V2 m ρ c main_arg12 = m ((c : Thread nD τ).loc main_arg12) :=
  (W2_of_ne m ρ c main_arg12 (by decide)).trans (V1_arg12 m ρ c)

/-- The first projection as the edge region finds it. -/
theorem V2_projI (c : Dev nD) : (V2 m ρ c main_v4_1 : A3 8 256 128) = projArr (m ((c : Thread nD τ).loc main_arg0)) (leftCols (m ((c : Thread nD τ).loc main_arg9))) := by
  refine (W2_arr m ρ c 10).trans ?_
  rw [node_projI (V1 m ρ) c, V1_arg0, V1_v2]

/-- The second projection as the edge region finds it. -/
theorem V2_projJ (c : Dev nD) : (V2 m ρ c main_v4_2 : A3 8 256 128) = projArr (m ((c : Thread nD τ).loc main_arg0)) (rightCols (m ((c : Thread nD τ).loc main_arg9))) := by
  refine (W2_arr m ρ c 11).trans ?_
  rw [node_projJ (V1 m ρ) c, V1_arg0, V1_v3]

/-! ## The two results -/

/-- The node result buffer ends at the node result of the launch contents. -/
theorem result_nodes (c : Dev nD) : (W3 m ρ c (Proc.devRef .tc main_v4_0) : A3 8 256 128)
    = nodeArr (m ((c : Thread nD τ).loc main_arg0)) (m ((c : Thread nD τ).loc main_arg2)) (m ((c : Thread nD τ).loc main_arg3)) (m ((c : Thread nD τ).loc main_arg4)) (leftCols (m ((c : Thread nD τ).loc main_arg5))) (rightCols (m ((c : Thread nD τ).loc main_arg5))) (m ((c : Thread nD τ).loc main_arg6)) := by
  refine (W3_of_ne m ρ c main_v4_0 (by decide)).trans ?_
  refine (W2_arr m ρ c 9).trans ?_
  rw [node_act (V1 m ρ) c, V1_arg0, V1_arg2, V1_arg3, V1_arg4, V1_v0, V1_v1, V1_arg6]

/-- The edge result buffer ends at the edge result of the launch contents. -/
theorem result_edges (c : Dev nD) : (W3 m ρ c (Proc.devRef .tc main_v5) : A3 8 65536 128)
    = edgeArr (m ((c : Thread nD τ).loc main_arg1)) (projArr (m ((c : Thread nD τ).loc main_arg0)) (leftCols (m ((c : Thread nD τ).loc main_arg9)))) (projArr (m ((c : Thread nD τ).loc main_arg0)) (rightCols (m ((c : Thread nD τ).loc main_arg9))))
        (m ((c : Thread nD τ).loc main_arg7)) (m ((c : Thread nD τ).loc main_arg8)) (m ((c : Thread nD τ).loc main_arg11)) (m ((c : Thread nD τ).loc main_arg12)) (m ((c : Thread nD τ).loc main_arg10)) := by
  refine (W3_arr m ρ c 8).trans ?_
  rw [edge_act (V2 m ρ) c, V2_arg1, V2_projI, V2_projJ, V2_arg7, V2_arg8, V2_arg11, V2_arg12, V2_arg10]

end Cert.KernelIdeal.Compose

end
-- ==== Proof.RefValue.lean ====
/-
  The reference program's two results, entry by entry, are the two arrays of the specification.

  Nodes.  The reference joins the hidden features and the messages along the last axis and multiplies the joined
  row by the whole 128 × 256 matrix: that is the joined reading of the node result, which equals the split reading.

  Edges.  The reference forms the pair term on a four-axis array [8, 256, 256, 128] and reshapes it to
  [8, 65536, 128]; row e of the reshaped array is the entry (e / 256, e % 256) of the four-axis array.
-/
import proofs.«166953_j41918880809190_1_alg».proof.Proof.Spec
import proofs.«166953_j41918880809190_1_alg».proof.Proof.Gen.ReferenceIdeal.Read
import Idealize.ShloMosaic.Lib.ValueIdx
import Idealize.ShloMosaic.Lib.Pipeline.Value
import Idealize.ShloMosaic.PureOps.Ideal.Laws

noncomputable section

open scoped BigOperators
open Idealize.ShloMosaic Idealize.ShloMosaic.TcCoe Idealize.SL.Sem Idealize.ShloMosaic.ValueIdx

namespace Cert.RefValue

open Cert.ReferenceIdeal Cert.ReferenceIdeal.Gen Cert.ReferenceIdeal.Read Cert.Spec

/-! ## The rectifier's zero -/

theorem zero0 (i : S8x256x128.Idx) : val_main_call0_v0 (F := Ideal) i = (0 : EReal) := by
  rw [val_main_call0_v0_apply, val_main_call0_cst_apply]; exact Ideal.ofBits_zero_f32

theorem zero1 (i : S8x256x128.Idx) : val_main_call1_v0 (F := Ideal) i = (0 : EReal) := by
  rw [val_main_call1_v0_apply, val_main_call1_cst_apply]; exact Ideal.ofBits_zero_f32

/-! ## Nodes -/

/-- The first layer's bias, broadcast over batch and node, read at an entry. -/
theorem bias0 (x4 : (⟨S128, .f32⟩ : BufTy).Contents (Elt Ideal)) (b : Fin 8) (n : Fin 256) (k : Fin 128) :
    val_main_v2 (F := Ideal) x4 (ix3 b n k) = x4 (ix1 k) := by
  rw [val_main_v2_apply, val_main_v1_apply]
  exact congrArg x4 (funext fun a => by match a with | ⟨0, _⟩ => rfl)

/-- The hidden features of the reference are the specification's. -/
theorem hid_eq (x0 : (⟨S8x256x128, .f32⟩ : BufTy).Contents (Elt Ideal)) (x3 : (⟨S128x128, .f32⟩ : BufTy).Contents (Elt Ideal))
    (x4 : (⟨S128, .f32⟩ : BufTy).Contents (Elt Ideal)) (b : Fin 8) (n : Fin 256) (k : Fin 128) :
    val_main_v4 (F := Ideal) x0 x3 x4 (ix3 b n k) = hid x0 x3 x4 b n k := by
  rw [val_main_v4_apply, val_main_v3_apply, val_main_v0_apply, bias0, zero0]
  unfold hid
  show max ((∑ q : Fin 128, x0 (lidx_main_v0 (ix3 b n k) q) * x3 (ridx_main_v0 (ix3 b n k) q)) + x4 (ix1 k)) 0 = _
  have e1 : ∀ q : Fin 128, lidx_main_v0 (ix3 b n k) q = ix3 b n q := fun q =>
    funext fun a => by match a with | ⟨0, _⟩ => rfl | ⟨1, _⟩ => rfl | ⟨2, _⟩ => rfl
  have e2 : ∀ q : Fin 128, ridx_main_v0 (ix3 b n k) q = ix2 k q := fun q =>
    funext fun a => by match a with | ⟨0, _⟩ => rfl | ⟨1, _⟩ => rfl
  simp only [e1, e2]

/-- The second layer's bias, broadcast over batch and node, read at an entry. -/
theorem bias1 (x6 : (⟨S128, .f32⟩ : BufTy).Contents (Elt Ideal)) (b : Fin 8) (n : Fin 256) (o : Fin 128) :
    val_main_v8 (F := Ideal) x6 (ix3 b n o) = x6 (ix1 o) := by
  rw [val_main_v8_apply, val_main_v7_apply]
  exact congrArg x6 (funext fun a => by match a with | ⟨0, _⟩ => rfl)

/-- The joined array at an entry: a hidden feature below column 128, a message from column 128 on. -/
theorem joined_eq (x0 x2 : (⟨S8x256x128, .f32⟩ : BufTy).Contents (Elt Ideal)) (x3 : (⟨S128x128, .f32⟩ : BufTy).Contents (Elt Ideal))
    (x4 : (⟨S128, .f32⟩ : BufTy).Contents (Elt Ideal)) (b : Fin 8) (n : Fin 256) (k : Fin 256) :
    val_main_v5 (F := Ideal) x0 x2 x3 x4 (ix3 b n k) = joinedRow x0 x2 x3 x4 b n k := by
  unfold joinedRow val_main_v5
  by_cases h : k.val < 128
  · rw [dif_pos h, ← hid_eq]
    exact concatenate_pair_apply_left (2 : Fin 3) (val_main_v4 (F := Ideal) x0 x3 x4) x2
      concatenates_S8x256x128_S8x256x128_S8x256x256_d2 (ix3 b n k) rfl (ix3 b n ⟨k.val, h⟩)
      (fun a => by match a with | ⟨0, _⟩ => rfl | ⟨1, _⟩ => rfl | ⟨2, _⟩ => rfl)
  · rw [dif_neg h]
    exact concatenate_pair_apply_right (2 : Fin 3) (val_main_v4 (F := Ideal) x0 x3 x4) x2
      concatenates_S8x256x128_S8x256x128_S8x256x256_d2 (ix3 b n k) rfl rfl (ix3 b n ⟨k.val - 128, by omega⟩)
      (fun a ha => by match a with | ⟨0, _⟩ => rfl | ⟨1, _⟩ => rfl | ⟨2, _⟩ => exact absurd rfl ha)
      (by show (k.val - 128) + 128 = k.val; omega)

theorem ref_nodes (x0 x2 : (⟨S8x256x128, .f32⟩ : BufTy).Contents (Elt Ideal)) (x3 : (⟨S128x128, .f32⟩ : BufTy).Contents (Elt Ideal))
    (x4 : (⟨S128, .f32⟩ : BufTy).Contents (Elt Ideal)) (x5 : (⟨S128x256, .f32⟩ : BufTy).Contents (Elt Ideal))
    (x6 : (⟨S128, .f32⟩ : BufTy).Contents (Elt Ideal)) :
    val_main_v10 (F := Ideal) x0 x2 x3 x4 x5 x6 = nodeArr x0 x2 x3 x4 (leftCols x5) (rightCols x5) x6 := by
  funext i
  obtain ⟨b, n, o, rfl⟩ : ∃ b n o, i = ix3 b n o := ⟨i 0, i 1, i 2, eq_ix3 i⟩
  show _ = nodeSplit x0 x2 x3 x4 (leftCols x5) (rightCols x5) x6 b n o
  rw [← nodeJoined_eq, val_main_v10_apply, val_main_v9_apply, val_main_v6_apply, bias1, zero1]
  unfold nodeJoined
  show max ((∑ k : Fin 256, val_main_v5 (F := Ideal) x0 x2 x3 x4 (lidx_main_v6 (ix3 b n o) k) * x5 (ridx_main_v6 (ix3 b n o) k))
    + x6 (ix1 o)) 0 = _
  have e1 : ∀ k : Fin 256, lidx_main_v6 (ix3 b n o) k = ix3 b n k := fun k =>
    funext fun a => by match a with | ⟨0, _⟩ => rfl | ⟨1, _⟩ => rfl | ⟨2, _⟩ => rfl
  have e2 : ∀ k : Fin 256, ridx_main_v6 (ix3 b n o) k = ix2 o k := fun k =>
    funext fun a => by match a with | ⟨0, _⟩ => rfl | ⟨1, _⟩ => rfl
  simp only [e1, e2, joined_eq]

/-! ## Edges -/

theorem zero2 (i : S8x65536x128.Idx) : val_main_call2_v0 (F := Ideal) i = (0 : EReal) := by
  rw [val_main_call2_v0_apply, val_main_call2_cst_apply]; exact Ideal.ofBits_zero_f32

theorem zero3 (i : S8x65536x128.Idx) : val_main_call3_v0 (F := Ideal) i = (0 : EReal) := by
  rw [val_main_call3_v0_apply, val_main_call3_cst_apply]; exact Ideal.ofBits_zero_f32

theorem zero4 (i : S8x65536x128.Idx) : val_main_call4_v0 (F := Ideal) i = (0 : EReal) := by
  rw [val_main_call4_v0_apply, val_main_call4_cst_apply]; exact Ideal.ofBits_zero_f32

/-- The node features against the left 128 columns of the 128 × 256 matrix. -/
theorem projI_eq (x0 : (⟨S8x256x128, .f32⟩ : BufTy).Contents (Elt Ideal)) (x9 : (⟨S128x256, .f32⟩ : BufTy).Contents (Elt Ideal))
    (b : Fin 8) (r : Fin 256) (k : Fin 128) :
    val_main_v13 (F := Ideal) x0 x9 (ix3 b r k) = projArr x0 (leftCols x9) (ix3 b r k) := by
  rw [val_main_v13_apply]
  show _ = ∑ q : Fin 128, x0 (ix3 b r q) * leftCols x9 (ix2 k q)
  refine Finset.sum_congr rfl fun q _ => ?_
  rw [val_main_v11_apply]
  have e1 : lidx_main_v13 (ix3 b r k) q = ix3 b r q :=
    funext fun a => by match a with | ⟨0, _⟩ => rfl | ⟨1, _⟩ => rfl | ⟨2, _⟩ => rfl
  have e2 : idx_main_v11 (ridx_main_v13 (ix3 b r k) q) = ix2 k ⟨q.val, by omega⟩ :=
    funext fun a => by match a with | ⟨0, _⟩ => rfl | ⟨1, _⟩ => rfl
  rw [e1, e2]
  rfl

/-- The node features against the right 128 columns of the 128 × 256 matrix. -/
theorem projJ_eq (x0 : (⟨S8x256x128, .f32⟩ : BufTy).Contents (Elt Ideal)) (x9 : (⟨S128x256, .f32⟩ : BufTy).Contents (Elt Ideal))
    (b : Fin 8) (j : Fin 256) (k : Fin 128) :
    val_main_v14 (F := Ideal) x0 x9 (ix3 b j k) = projArr x0 (rightCols x9) (ix3 b j k) := by
  rw [val_main_v14_apply]
  show _ = ∑ q : Fin 128, x0 (ix3 b j q) * rightCols x9 (ix2 k q)
  refine Finset.sum_congr rfl fun q _ => ?_
  rw [val_main_v12_apply]
  have e1 : lidx_main_v14 (ix3 b j k) q = ix3 b j q :=
    funext fun a => by match a with | ⟨0, _⟩ => rfl | ⟨1, _⟩ => rfl | ⟨2, _⟩ => rfl
  have e2 : idx_main_v12 (ridx_main_v14 (ix3 b j k) q) = ix2 k ⟨128 + q.val, by omega⟩ :=
    funext fun a => by match a with | ⟨0, _⟩ => rfl | ⟨1, _⟩ => rfl
  rw [e1, e2]
  rfl

/-- The pair sum on the four-axis array: entry (b, r, j, k) takes row r of the first projection, row j of the second
    and entry k of the bias. -/
theorem pairSum_eq (x0 : (⟨S8x256x128, .f32⟩ : BufTy).Contents (Elt Ideal)) (x9 : (⟨S128x256, .f32⟩ : BufTy).Contents (Elt Ideal))
    (x10 : (⟨S128, .f32⟩ : BufTy).Contents (Elt Ideal)) (b : Fin 8) (r j : Fin 256) (k : Fin 128) :
    val_main_v22 (F := Ideal) x0 x9 x10 (ix4 b r j k)
      = (projArr x0 (leftCols x9) (ix3 b r k) + projArr x0 (rightCols x9) (ix3 b j k)) + x10 (ix1 k) := by
  rw [val_main_v22_apply, val_main_v19_apply, val_main_v17_apply, val_main_v15_apply, val_main_v18_apply, val_main_v16_apply,
    val_main_v21_apply, val_main_v20_apply, ← projI_eq, ← projJ_eq]
  have e1 : idx_main_v15 (idx_main_v17 (ix4 b r j k)) = ix3 b r k :=
    funext fun a => by match a with | ⟨0, _⟩ => rfl | ⟨1, _⟩ => rfl | ⟨2, _⟩ => rfl
  have e2 : idx_main_v16 (idx_main_v18 (ix4 b r j k)) = ix3 b j k :=
    funext fun a => by match a with | ⟨0, _⟩ => rfl | ⟨1, _⟩ => rfl | ⟨2, _⟩ => rfl
  have e3 : idx_main_v20 (idx_main_v21 (ix4 b r j k)) = ix1 k :=
    funext fun a => by match a with | ⟨0, _⟩ => rfl
  rw [e1, e2, e3]
  rfl

/-- Row e of the reshaped array is the entry (e / 256, e % 256) of the four-axis array. -/
theorem reshape_idx (b : Fin 8) (e : Fin 65536) (k : Fin 128) :
    idx_main_v23 (ix3 b e k) = ix4 b (rowOf e) (colOf e) k := by
  have hb := b.isLt; have he := e.isLt; have hk := k.isLt
  funext a
  match a with
  | ⟨0, _⟩ => exact Fin.ext (by show ((b.val * 65536 + e.val) * 128 + k.val) / 8388608 = b.val; omega)
  | ⟨1, _⟩ => exact Fin.ext (by show ((b.val * 65536 + e.val) * 128 + k.val) / 32768 % 256 = e.val / 256; omega)
  | ⟨2, _⟩ => exact Fin.ext (by show ((b.val * 65536 + e.val) * 128 + k.val) / 128 % 256 = e.val % 256; omega)
  | ⟨3, _⟩ => exact Fin.ext (by show ((b.val * 65536 + e.val) * 128 + k.val) % 128 = k.val; omega)

/-- The rectified pair term of edge e. -/
theorem pairAct_eq (x0 : (⟨S8x256x128, .f32⟩ : BufTy).Contents (Elt Ideal)) (x9 : (⟨S128x256, .f32⟩ : BufTy).Contents (Elt Ideal))
    (x10 : (⟨S128, .f32⟩ : BufTy).Contents (Elt Ideal)) (b : Fin 8) (e : Fin 65536) (k : Fin 128) :
    val_main_v24 (F := Ideal) x0 x9 x10 (ix3 b e k)
      = pairAct (projArr x0 (leftCols x9)) (projArr x0 (rightCols x9)) x10 b (rowOf e) (colOf e) k := by
  rw [val_main_v24_apply, val_main_v23_apply, reshape_idx, pairSum_eq, zero2]
  rfl

/-- The edge layer's first bias, broadcast over batch and edge, read at an entry. -/
theorem bias2 (x8 : (⟨S128, .f32⟩ : BufTy).Contents (Elt Ideal)) (b : Fin 8) (e : Fin 65536) (k : Fin 128) :
    val_main_v27 (F := Ideal) x8 (ix3 b e k) = x8 (ix1 k) := by
  rw [val_main_v27_apply, val_main_v26_apply]
  exact congrArg x8 (funext fun a => by match a with | ⟨0, _⟩ => rfl)

/-- The edge layer's last bias, broadcast over batch and edge, read at an entry. -/
theorem bias4 (x12 : (⟨S128, .f32⟩ : BufTy).Contents (Elt Ideal)) (b : Fin 8) (e : Fin 65536) (o : Fin 128) :
    val_main_v33 (F := Ideal) x12 (ix3 b e o) = x12 (ix1 o) := by
  rw [val_main_v33_apply, val_main_v32_apply]
  exact congrArg x12 (funext fun a => by match a with | ⟨0, _⟩ => rfl)

/-- The hidden edge features of the reference are the specification's. -/
theorem edgeHid_eq (x1 : (⟨S8x65536x128, .f32⟩ : BufTy).Contents (Elt Ideal)) (x7 : (⟨S128x128, .f32⟩ : BufTy).Contents (Elt Ideal))
    (x8 : (⟨S128, .f32⟩ : BufTy).Contents (Elt Ideal)) (b : Fin 8) (e : Fin 65536) (k : Fin 128) :
    val_main_v29 (F := Ideal) x1 x7 x8 (ix3 b e k) = edgeHid x1 x7 x8 b e k := by
  rw [val_main_v29_apply, val_main_v28_apply, val_main_v25_apply, bias2, zero3]
  unfold edgeHid
  show max ((∑ q : Fin 128, x1 (lidx_main_v25 (ix3 b e k) q) * x7 (ridx_main_v25 (ix3 b e k) q)) + x8 (ix1 k)) 0 = _
  have e1 : ∀ q : Fin 128, lidx_main_v25 (ix3 b e k) q = ix3 b e q := fun q =>
    funext fun a => by match a with | ⟨0, _⟩ => rfl | ⟨1, _⟩ => rfl | ⟨2, _⟩ => rfl
  have e2 : ∀ q : Fin 128, ridx_main_v25 (ix3 b e k) q = ix2 k q := fun q =>
    funext fun a => by match a with | ⟨0, _⟩ => rfl | ⟨1, _⟩ => rfl
  simp only [e1, e2]

theorem ref_edges (x0 : (⟨S8x256x128, .f32⟩ : BufTy).Contents (Elt Ideal)) (x1 : (⟨S8x65536x128, .f32⟩ : BufTy).Contents (Elt Ideal))
    (x7 : (⟨S128x128, .f32⟩ : BufTy).Contents (Elt Ideal)) (x8 : (⟨S128, .f32⟩ : BufTy).Contents (Elt Ideal))
    (x9 : (⟨S128x256, .f32⟩ : BufTy).Contents (Elt Ideal)) (x10 : (⟨S128, .f32⟩ : BufTy).Contents (Elt Ideal))
    (x11 : (⟨S128x128, .f32⟩ : BufTy).Contents (Elt Ideal)) (x12 : (⟨S128, .f32⟩ : BufTy).Contents (Elt Ideal)) :
    val_main_v35 (F := Ideal) x0 x1 x7 x8 x9 x10 x11 x12
      = edgeArr x1 (projArr x0 (leftCols x9)) (projArr x0 (rightCols x9)) x7 x8 x11 x12 x10 := by
  funext i
  obtain ⟨b, e, o, rfl⟩ : ∃ b e o, i = ix3 b e o := ⟨i 0, i 1, i 2, eq_ix3 i⟩
  show _ = edgeAct x1 (projArr x0 (leftCols x9)) (projArr x0 (rightCols x9)) x7 x8 x11 x12 x10 b e o
  rw [val_main_v35_apply, val_main_v34_apply, val_main_v31_apply, bias4, zero4]
  unfold edgeAct
  show max ((∑ k : Fin 128, val_main_v30 (F := Ideal) x0 x1 x7 x8 x9 x10 (lidx_main_v31 (ix3 b e o) k)
    * x11 (ridx_main_v31 (ix3 b e o) k)) + x12 (ix1 o)) 0 = _
  have e1 : ∀ k : Fin 128, lidx_main_v31 (ix3 b e o) k = ix3 b e k := fun k =>
    funext fun a => by match a with | ⟨0, _⟩ => rfl | ⟨1, _⟩ => rfl | ⟨2, _⟩ => rfl
  have e2 : ∀ k : Fin 128, ridx_main_v31 (ix3 b e o) k = ix2 o k := fun k =>
    funext fun a => by match a with | ⟨0, _⟩ => rfl | ⟨1, _⟩ => rfl
  have e3 : ∀ k : Fin 128, val_main_v30 (F := Ideal) x0 x1 x7 x8 x9 x10 (ix3 b e k)
      = edgeHid x1 x7 x8 b e k + pairAct (projArr x0 (leftCols x9)) (projArr x0 (rightCols x9)) x10 b (rowOf e) (colOf e) k :=
    fun k => by rw [val_main_v30_apply, edgeHid_eq, pairAct_eq]; rfl
  simp only [e1, e2, e3]

end Cert.RefValue

end
-- ==== Proof.lean ====
/-
  The certificate of one message-passing layer: a kernel program of two pipelined regions against a plain reference.

  Both programs compute, on the extended reals,
      nodes = relu([relu(x·W0ᵀ + b0) ‖ msg]·W1ᵀ + b1),
      edges[256·r + j] = relu((relu(e·W2ᵀ + b2) + relu(pI[r] + pJ[j] + b3))·W4ᵀ + b4),   pI = x·W3[:, :128]ᵀ, pJ = x·W3[:, 128:]ᵀ.
  The kernel program forms the second node layer as two 128-term sums (the hidden features against the left columns of
  W1, the messages against its right columns), the reference as one 256-term sum over the joined row; a sum over
  256 = 128 + 128 terms is the sum of its halves in any commutative monoid, so the two agree on every input, infinite
  entries included, and the precondition is not used. Every other step is the same operation on both sides: the kernel's
  tiles of 16 node rows by 256 node columns are rows 4096·t … 4096·t + 4095 of the edge array, where
  (4096·t + y) / 256 = 16·t + y / 256 and (4096·t + y) % 256 = y % 256.

  The frames of the two kernel programs are the generated ones; the reference's frame is its generated run with the
  results dropped; the idealization rewrote no operation, so there is nothing to preserve. For the value claim the
  kernel program's run is read with its two result buffers named (KernelRun), each buffer's final contents is the
  specification's function of the launch memory (Compose, over NodeRegion and EdgeRegion), and the reference's two
  results are the same functions (RefValue).
-/
import proofs.«166953_j41918880809190_1_alg».proof.Defs
import proofs.«166953_j41918880809190_1_alg».proof.Proof.Gen.Kernel
import proofs.«166953_j41918880809190_1_alg».proof.Proof.Gen.Kernel.Skeleton
import proofs.«166953_j41918880809190_1_alg».proof.Proof.Gen.Kernel.Launch
import proofs.«166953_j41918880809190_1_alg».proof.Proof.Gen.Kernel.Points
import proofs.«166953_j41918880809190_1_alg».proof.Proof.Gen.Kernel.Frame
import proofs.«166953_j41918880809190_1_alg».proof.Proof.Gen.KernelIdeal
import proofs.«166953_j41918880809190_1_alg».proof.Proof.Gen.KernelIdeal.Skeleton
import proofs.«166953_j41918880809190_1_alg».proof.Proof.Gen.KernelIdeal.Launch
import proofs.«166953_j41918880809190_1_alg».proof.Proof.Gen.KernelIdeal.Points
import proofs.«166953_j41918880809190_1_alg».proof.Proof.Gen.KernelIdeal.Frame
import proofs.«166953_j41918880809190_1_alg».proof.Proof.Gen.ReferenceIdeal
import proofs.«166953_j41918880809190_1_alg».proof.Proof.Gen.Pre_finite_inputs
import proofs.«166953_j41918880809190_1_alg».proof.Proof.Gen.ReferenceIdeal.Run
import proofs.«166953_j41918880809190_1_alg».proof.Proof.Gen.ReferenceIdeal.Read
import proofs.«166953_j41918880809190_1_alg».proof.Proof.KernelRun
import proofs.«166953_j41918880809190_1_alg».proof.Proof.Compose
import proofs.«166953_j41918880809190_1_alg».proof.Proof.RefValue
import Idealize.ShloMosaic.Adequacy
import Idealize.ShloMosaic.Init

noncomputable section

namespace Cert.Proof

open Idealize.ShloMosaic Idealize.ShloMosaic.TcCoe Idealize.SL.Sem Cert.Spec

theorem frame_k : Cert.frame_Kernel := fun m ρ _ => Cert.Kernel.Gen.frame m ρ

theorem frame_ki : Cert.frame_KernelIdeal := fun m ρ _ => Cert.KernelIdeal.Gen.frame m ρ

/-- The reference's run with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the node result and the edge result of the specification at the launch contents of
    arguments that agree. -/
theorem algebraic : Cert.algebraic_KernelIdeal_ReferenceIdeal := by
  intro m ρ m' ρ' _ hagree
  refine ⟨fun c => nodeArr (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (leftCols (m ((c.tc : Thread Cert.KernelIdeal.nD Cert.KernelIdeal.τ).loc Cert.KernelIdeal.main_arg5))) (rightCols (m ((c.tc : Thread Cert.KernelIdeal.nD Cert.KernelIdeal.τ).loc Cert.KernelIdeal.main_arg5))) (m ((c.tc : Thread Cert.KernelIdeal.nD Cert.KernelIdeal.τ).loc Cert.KernelIdeal.main_arg6)),
    fun c => edgeArr (m ((c.tc : Thread Cert.KernelIdeal.nD Cert.KernelIdeal.τ).loc Cert.KernelIdeal.main_arg1)) (projArr (m ((c.tc : Thread Cert.KernelIdeal.nD Cert.KernelIdeal.τ).loc Cert.KernelIdeal.main_arg0)) (leftCols (m ((c.tc : Thread Cert.KernelIdeal.nD Cert.KernelIdeal.τ).loc Cert.KernelIdeal.main_arg9)))) (projArr (m ((c.tc : Thread Cert.KernelIdeal.nD Cert.KernelIdeal.τ).loc Cert.KernelIdeal.main_arg0)) (rightCols (m ((c.tc : Thread Cert.KernelIdeal.nD Cert.KernelIdeal.τ).loc Cert.KernelIdeal.main_arg9))))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Compose.result_nodes m ρ c),
        (h c).2.1.trans (Cert.KernelIdeal.Compose.result_edges m ρ c), (h c).2.2⟩)
      (Cert.KernelIdeal.RunNamed.run_named (F := Ideal) m ρ)
  · refine (θ_run Cert.ReferenceIdeal.defs _ _).mono (fun _ h c => ?_) (Cert.ReferenceIdeal.Value.run (F := Ideal) m' ρ')
    obtain ⟨e0, e1, e2, e3, e4, e5, e6, e7, e8, e9, e10, e11, e12⟩ := hagree c
    refine ⟨(h c).1.trans ?_, (h c).2.1.trans ?_, (h c).2.2⟩
    · rw [Cert.ReferenceIdeal.Read.val_main_v10_eq, Cert.RefValue.ref_nodes, e0, e2, e3, e4, e5, e6]
    · rw [Cert.ReferenceIdeal.Read.val_main_v35_eq, Cert.RefValue.ref_edges, e0, e1, e7, e8, e9, e10, e11, e12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
